-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x1024 : Shape := ⟨3, ![32, 1024, 1024]⟩
abbrev S1024x1024 : Shape := ⟨2, ![1024, 1024]⟩
abbrev S1024 : Shape := ⟨1, ![1024]⟩
abbrev S_ : Shape := ⟨0, ![]⟩

class Facts : Prop where
  bcast_S_S32x1024x1024 : S_.BroadcastsInDim S32x1024x1024 (![] : Fin 0 → Fin S32x1024x1024.rank)
  reducesTo_S32x1024x1024_S_d0_1_2 : S32x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S32x1024x1024 .f32) (main_arg1 : FVec F S32x1024x1024 .f32) (main_arg2 : FVec F S32x1024x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S32x1024x1024 .f32 := Host.absf main_arg0
  let main_cst : FVec F S_ .f32 := constant S_ .f32 0x7F800000#32
  let main_v1 : FVec F S32x1024x1024 .f32 := broadcastInDim S32x1024x1024 ![] bcast_S_S32x1024x1024 main_cst
  let main_v2 : IVec S32x1024x1024 1 := cmpf .olt main_v0 main_v1
  let main_c : IVec S_ 1 := constantI S_ 1 1#1
  let main_v3 : IVec S_ 1 := (fun x v => Host.reduce IntOp.andi x v reducesTo_S32x1024x1024_S_d0_1_2 h_S_) main_v2 main_c
  let main_v4 : FVec F S32x1024x1024 .f32 := Host.absf main_arg1
  let main_cst_0 : FVec F S_ .f32 := constant S_ .f32 0x7F800000#32
  let main_v5 : FVec F S32x1024x1024 .f32 := broadcastInDim S32x1024x1024 ![] bcast_S_S32x1024x1024 main_cst_0
  let main_v6 : IVec S32x1024x1024 1 := cmpf .olt main_v4 main_v5
  let main_c_1 : IVec S_ 1 := constantI S_ 1 1#1
  let main_v7 : IVec S_ 1 := (fun x v => Host.reduce IntOp.andi x v reducesTo_S32x1024x1024_S_d0_1_2 h_S_) main_v6 main_c_1
  let main_v8 : IVec S_ 1 := andi main_v3 main_v7
  let main_v9 : FVec F S32x1024x1024 .f32 := Host.absf main_arg2
  let main_cst_2 : FVec F S_ .f32 := constant S_ .f32 0x7F800000#32
  let main_v10 : FVec F S32x1024x1024 .f32 := broadcastInDim S32x1024x1024 ![] bcast_S_S32x1024x1024 main_cst_2
  let main_v11 : IVec S32x1024x1024 1 := cmpf .olt main_v9 main_v10
  let main_c_3 : IVec S_ 1 := constantI S_ 1 1#1
  let main_v12 : IVec S_ 1 := (fun x v => Host.reduce IntOp.andi x v reducesTo_S32x1024x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S32x1024x1024 : Shape := ⟨3, ![32, 1024, 1024]⟩
abbrev S1024x1024 : Shape := ⟨2, ![1024, 1024]⟩
abbrev S1024 : Shape := ⟨1, ![1024]⟩
abbrev S32768x1024 : Shape := ⟨2, ![32768, 1024]⟩
abbrev S1x1024 : Shape := ⟨2, ![1, 1024]⟩
abbrev S32768x16x64 : Shape := ⟨3, ![32768, 16, 64]⟩
abbrev S32768x16x16 : Shape := ⟨3, ![32768, 16, 16]⟩
abbrev S1024x16x64 : Shape := ⟨3, ![1024, 16, 64]⟩
abbrev S1024x16x16 : Shape := ⟨3, ![1024, 16, 16]⟩
abbrev S32768x64x16 : Shape := ⟨3, ![32768, 64, 16]⟩

abbrev nBuf : Space → Nat
  | .hbm => 25
  | .vmem => 28
  | .smem => 0
  | _ => 0

abbrev bufTy : (tb : Table) → Fin (tcTables nBuf tb) → BufTy
  | .hbm, ⟨0, _⟩ => ⟨S32x1024x1024, .f32⟩
  | .hbm, ⟨1, _⟩ => ⟨S32x1024x1024, .f32⟩
  | .hbm, ⟨2, _⟩ => ⟨S32x1024x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S32768x1024, .f32⟩
  | .hbm, ⟨10, _⟩ => ⟨S32768x1024, .f32⟩
  | .hbm, ⟨11, _⟩ => ⟨S32768x1024, .f32⟩
  | .hbm, ⟨12, _⟩ => ⟨S1024x1024, .f32⟩
  | .hbm, ⟨13, _⟩ => ⟨S32768x1024, .bf16⟩
  | .hbm, ⟨14, _⟩ => ⟨S1024x1024, .f32⟩
  | .hbm, ⟨15, _⟩ => ⟨S32768x1024, .bf16⟩
  | .hbm, ⟨16, _⟩ => ⟨S1024x1024, .f32⟩
  | .hbm, ⟨17, _⟩ => ⟨S32768x1024, .bf16⟩
  | .hbm, ⟨18, _⟩ => ⟨S32768x16x64, .bf16⟩
  | .hbm, ⟨19, _⟩ => ⟨S32768x16x64, .bf16⟩
  | .hbm, ⟨20, _⟩ => ⟨S32768x16x64, .bf16⟩
  | .hbm, ⟨21, _⟩ => ⟨S32768x16x64, .f32⟩
  | .hbm, ⟨22, _⟩ => ⟨S32768x16x16, .f32⟩
  | .hbm, ⟨23, _⟩ => ⟨S32768x64x16, .f32⟩
  | .hbm, ⟨24, _⟩ => ⟨S32x1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1024, .f32⟩
  | .local _ .vmem, ⟨16, _⟩ => ⟨S1024x1024, .bf16⟩
  | .local _ .vmem, ⟨17, _⟩ => ⟨S1024x1024, .bf16⟩
  | .local _ .vmem, ⟨18, _⟩ => ⟨S1024x16x64, .bf16⟩
  | .local _ .vmem, ⟨19, _⟩ => ⟨S1024x16x64, .bf16⟩
  | .local _ .vmem, ⟨20, _⟩ => ⟨S1024x16x64, .bf16⟩
  | .local _ .vmem, ⟨21, _⟩ => ⟨S1024x16x64, .bf16⟩
  | .local _ .vmem, ⟨22, _⟩ => ⟨S1024x16x64, .bf16⟩
  | .local _ .vmem, ⟨23, _⟩ => ⟨S1024x16x64, .bf16⟩
  | .local _ .vmem, ⟨24, _⟩ => ⟨S1024x16x64, .f32⟩
  | .local _ .vmem, ⟨25, _⟩ => ⟨S1024x16x64, .f32⟩
  | .local _ .vmem, ⟨26, _⟩ => ⟨S1024x16x16, .f32⟩
  | .local _ .vmem, ⟨27, _⟩ => ⟨S1024x16x16, .f32⟩
  | _, _ => ⟨S32x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![32], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1024x16x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1024x16x64 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1024x16x64 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1024x16x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1024x16x16 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  shapeCasts_S32x1024x1024_S32768x1024 : S32x1024x1024.ShapeCasts S32768x1024
  transposes_S1024x1024_S1024x1024_1_0 : S1024x1024.Transposes [1, 0] S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  shapeCasts_S32768x1024_S32768x16x64 : S32768x1024.ShapeCasts S32768x16x64
  inb_S1024x16x64_S1024x16x64_0_0_0 : ∀ a, (![0, 0, 0] : Fin 3 → Nat) a + S1024x16x64.size a ≤ S1024x16x64.size a
  h_S1024x16x64 : 0 < S1024x16x64.numel
  shapeCasts_S1024x16x64_S1024x16x64 : S1024x16x64.ShapeCasts S1024x16x64
  inb_S1024x16x16_S1024x16x16_0_0_0 : ∀ a, (![0, 0, 0] : Fin 3 → Nat) a + S1024x16x16.size a ≤ S1024x16x16.size a
  h_S1024x16x16 : 0 < S1024x16x16.numel
  transposes_S32768x16x64_S32768x64x16_0_2_1 : S32768x16x64.Transposes [0, 2, 1] S32768x64x16
  shapeCasts_S32768x64x16_S32x1024x1024 : S32768x64x16.ShapeCasts S32x1024x1024
  dot_S1024x1024_S1024x1024_S1024x1024_1_0_0_1_n_n_wf : DotDims.WF S1024x1024 S1024x1024 S1024x1024 [1] [0] [0] [1] [] []
  dot_S1024x16x64_S1024x16x64_S1024x16x16_2_2_1_1_0_0_wf : DotDims.WF S1024x16x64 S1024x16x64 S1024x16x16 [2] [2] [1] [1] [0] [0]
  dot_S1024x16x16_S1024x16x64_S1024x16x64_2_1_1_2_0_0_wf : DotDims.WF S1024x16x16 S1024x16x64 S1024x16x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S32768x1024.size a
  hwx0_3 : ∀ i : grid0.Coords, EltTy.bits .bf16 = 32 ∨ (Rect.block (s := S32768x1024) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S32768x1024.size a
  hwx1_0 : ∀ i : grid1.Coords, EltTy.bits .f32 = 32 ∨ (Rect.block (s := S32768x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S1024.size a
  hwx1_2 : ∀ i : grid1.Coords, EltTy.bits .f32 = 32 ∨ (Rect.block (s := S1024) S1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S32768x1024.size a
  hwx1_3 : ∀ i : grid1.Coords, EltTy.bits .bf16 = 32 ∨ (Rect.block (s := S32768x1024) S1024x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S32768x1024.size a
  hwx2_0 : ∀ i : grid2.Coords, EltTy.bits .f32 = 32 ∨ (Rect.block (s := S32768x1024) S1024x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .f32 = 32 ∨ (Rect.block (s := S1024x1024) S1024x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024.size a ≤ S1024.size a
  hwx2_2 : ∀ i : grid2.Coords, EltTy.bits .f32 = 32 ∨ (Rect.block (s := S1024) S1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S32768x1024.size a
  hwx2_3 : ∀ i : grid2.Coords, EltTy.bits .bf16 = 32 ∨ (Rect.block (s := S32768x1024) S1024x1024.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x16x64.size a ≤ S32768x16x64.size a
  hwx3_0 : ∀ i : grid3.Coords, EltTy.bits .bf16 = 32 ∨ (Rect.block (s := S32768x16x64) S1024x16x64.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x16x64.size a ≤ S32768x16x64.size a
  hwx3_1 : ∀ i : grid3.Coords, EltTy.bits .bf16 = 32 ∨ (Rect.block (s := S32768x16x64) S1024x16x64.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x16x64.size a ≤ S32768x16x64.size a
  hwx3_2 : ∀ i : grid3.Coords, EltTy.bits .bf16 = 32 ∨ (Rect.block (s := S32768x16x64) S1024x16x64.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x16x64.size a ≤ S32768x16x64.size a
  hwx3_3 : ∀ i : grid3.Coords, EltTy.bits .f32 = 32 ∨ (Rect.block (s := S32768x16x64) S1024x16x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1024x16x16.size a ≤ S32768x16x16.size a
  hwx3_4 : ∀ i : grid3.Coords, EltTy.bits .f32 = 32 ∨ (Rect.block (s := S32768x16x16) S1024x16x16.size (cc3_transform_4 i) (hinb3_4 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x16x64_S1024x16x64_S1024x16x16_2_2_1_1_0_0 : DotDims S1024x16x64 S1024x16x64 S1024x16x16 where
  lhsContracting := [2]
  rhsContracting := [2]
  lhsNonContracting := [1]
  rhsNonContracting := [1]
  lhsBatch := [0]
  rhsBatch := [0]
  wf := dot_S1024x16x64_S1024x16x64_S1024x16x16_2_2_1_1_0_0_wf
def dot_S1024x16x16_S1024x16x64_S1024x16x64_2_1_1_2_0_0 : DotDims S1024x16x16 S1024x16x64 S1024x16x64 where
  lhsContracting := [2]
  rhsContracting := [1]
  lhsNonContracting := [1]
  rhsNonContracting := [2]
  lhsBatch := [0]
  rhsBatch := [0]
  wf := dot_S1024x16x16_S1024x16x64_S1024x16x64_2_1_1_2_0_0_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v2) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v8) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v9) S1024x16x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v10) S1024x16x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S1024x16x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v12_0) S1024x16x64.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v12_1) S1024x16x16.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S32x1024x1024 : Shape := ⟨3, ![32, 1024, 1024]⟩
abbrev S1024x1024 : Shape := ⟨2, ![1024, 1024]⟩
abbrev S1024 : Shape := ⟨1, ![1024]⟩
abbrev S1x1x1024 : Shape := ⟨3, ![1, 1, 1024]⟩
abbrev S32768x16x64 : Shape := ⟨3, ![32768, 16, 64]⟩
abbrev S32768x16x16 : Shape := ⟨3, ![32768, 16, 16]⟩
abbrev S_ : Shape := ⟨0, ![]⟩
abbrev S32768x64x16 : Shape := ⟨3, ![32768, 64, 16]⟩

abbrev nBuf : Space → Nat
  | .hbm => 33
  | .vmem => 0
  | .smem => 0
  | _ => 0

abbrev bufTy : (tb : Table) → Fin (tcTables nBuf tb) → BufTy
  | .hbm, ⟨0, _⟩ => ⟨S32x1024x1024, .f32⟩
  | .hbm, ⟨1, _⟩ => ⟨S32x1024x1024, .f32⟩
  | .hbm, ⟨2, _⟩ => ⟨S32x1024x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S32x1024x1024, .f32⟩
  | .hbm, ⟨10, _⟩ => ⟨S1x1x1024, .f32⟩
  | .hbm, ⟨11, _⟩ => ⟨S32x1024x1024, .f32⟩
  | .hbm, ⟨12, _⟩ => ⟨S32x1024x1024, .f32⟩
  | .hbm, ⟨13, _⟩ => ⟨S32768x16x64, .f32⟩
  | .hbm, ⟨14, _⟩ => ⟨S32x1024x1024, .f32⟩
  | .hbm, ⟨15, _⟩ => ⟨S1x1x1024, .f32⟩
  | .hbm, ⟨16, _⟩ => ⟨S32x1024x1024, .f32⟩
  | .hbm, ⟨17, _⟩ => ⟨S32x1024x1024, .f32⟩
  | .hbm, ⟨18, _⟩ => ⟨S32768x16x64, .f32⟩
  | .hbm, ⟨19, _⟩ => ⟨S32x1024x1024, .f32⟩
  | .hbm, ⟨20, _⟩ => ⟨S1x1x1024, .f32⟩
  | .hbm, ⟨21, _⟩ => ⟨S32x1024x1024, .f32⟩
  | .hbm, ⟨22, _⟩ => ⟨S32x1024x1024, .f32⟩
  | .hbm, ⟨23, _⟩ => ⟨S32768x16x64, .f32⟩
  | .hbm, ⟨24, _⟩ => ⟨S32768x16x16, .f32⟩
  | .hbm, ⟨25, _⟩ => ⟨S_, .f32⟩
  | .hbm, ⟨26, _⟩ => ⟨S_, .f32⟩
  | .hbm, ⟨27, _⟩ => ⟨S32768x16x16, .f32⟩
  | .hbm, ⟨28, _⟩ => ⟨S32768x16x16, .f32⟩
  | .hbm, ⟨29, _⟩ => ⟨S32768x16x16, .f32⟩
  | .hbm, ⟨30, _⟩ => ⟨S32768x16x64, .f32⟩
  | .hbm, ⟨31, _⟩ => ⟨S32768x64x16, .f32⟩
  | .hbm, ⟨32, _⟩ => ⟨S32x1024x1024, .f32⟩
  | _, _ => ⟨S32x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S32x1024x1024_0_1_2 : S1x1x1024.BroadcastsInDim S32x1024x1024 (![0, 1, 2] : Fin 3 → Fin S32x1024x1024.rank)
  shapeCasts_S32x1024x1024_S32768x16x64 : S32x1024x1024.ShapeCasts S32768x16x64
  bcast_S_S32768x16x16 : S_.BroadcastsInDim S32768x16x16 (![] : Fin 0 → Fin S32768x16x16.rank)
  transposes_S32768x16x64_S32768x64x16_0_2_1 : S32768x16x64.Transposes [0, 2, 1] S32768x64x16
  shapeCasts_S32768x64x16_S32x1024x1024 : S32768x64x16.ShapeCasts S32x1024x1024
  dot_S32x1024x1024_S1024x1024_S32x1024x1024_2_1_01_0_n_n_wf : DotDims.WF S32x1024x1024 S1024x1024 S32x1024x1024 [2] [1] [0, 1] [0] [] []
  dot_S32768x16x64_S32768x16x64_S32768x16x16_2_2_1_1_0_0_wf : DotDims.WF S32768x16x64 S32768x16x64 S32768x16x16 [2] [2] [1] [1] [0] [0]
  dot_S32768x16x16_S32768x16x64_S32768x16x64_2_1_1_2_0_0_wf : DotDims.WF S32768x16x16 S32768x16x64 S32768x16x64 [2] [1] [1] [2] [0] [0]

variable [Facts₀]

def dot_S32x1024x1024_S1024x1024_S32x1024x1024_2_1_01_0_n_n : DotDims S32x1024x1024 S1024x1024 S32x1024x1024 where
  lhsContracting := [2]
  rhsContracting := [1]
  lhsNonContracting := [0, 1]
  rhsNonContracting := [0]
  lhsBatch := []
  rhsBatch := []
  wf := dot_S32x1024x1024_S1024x1024_S32x1024x1024_2_1_01_0_n_n_wf
def dot_S32768x16x64_S32768x16x64_S32768x16x16_2_2_1_1_0_0 : DotDims S32768x16x64 S32768x16x64 S32768x16x16 where
  lhsContracting := [2]
  rhsContracting := [2]
  lhsNonContracting := [1]
  rhsNonContracting := [1]
  lhsBatch := [0]
  rhsBatch := [0]
  wf := dot_S32768x16x64_S32768x16x64_S32768x16x16_2_2_1_1_0_0_wf
def dot_S32768x16x16_S32768x16x64_S32768x16x64_2_1_1_2_0_0 : DotDims S32768x16x16 S32768x16x64 S32768x16x64 where
  lhsContracting := [2]
  rhsContracting := [1]
  lhsNonContracting := [1]
  rhsNonContracting := [2]
  lhsBatch := [0]
  rhsBatch := [0]
  wf := dot_S32768x16x16_S32768x16x64_S32768x16x64_2_1_1_2_0_0_wf

class Facts : Prop extends Facts₀ where

variable [Facts]
-- ==== Proof.Spec.lean ====
/-
  What the attention block computes, read index by index over the extended reals.

  A token is a row n of the 32768 = 32 · 1024 rows of an activation array [32, 1024, 1024] (n = t · 1024 + s). Its
  projection is the affine map x ↦ x · Wᵀ + b over the 1024 features, whose feature f = h · 64 + d is head h's
  coordinate d. Per token, head h looks at head g through the score (∑_d q[n,h,d] · k[n,g,d]) / 8, squashed by
  tanh, and the context of head h is the mix ∑_g probs[n,h,g] · v[n,g,d].

  The sums are finite sums in the extended reals, a commutative monoid under +, so their grouping and order do not
  matter and no finiteness of the inputs is used anywhere. The one law between the two programs is that dividing by
  the real 8 = √64 is multiplying by 1/8, which holds for every extended real.
-/
import Idealize.ShloMosaic.PureOps.Ideal
import Idealize.ShloMosaic.PureOps.Ideal.Laws
import Idealize.ShloMosaic.Lib.ValueIdx
import Idealize.ShloMosaic.Lib.Pipeline.Value

noncomputable section

namespace Cert.Attn

open Idealize.ShloMosaic

/-- Activations [32, 1024, 1024]; a weight matrix [1024, 1024]; a bias row [1024]; tokens by features
    [32768, 1024]; tokens by heads by head coordinates [32768, 16, 64]; tokens by heads by heads [32768, 16, 16]. -/
abbrev Act : Shape := ⟨3, ![32, 1024, 1024]⟩
abbrev Mat : Shape := ⟨2, ![1024, 1024]⟩
abbrev Row : Shape := ⟨1, ![1024]⟩
abbrev Tok : Shape := ⟨2, ![32768, 1024]⟩
abbrev Hd : Shape := ⟨3, ![32768, 16, 64]⟩
abbrev Mix : Shape := ⟨3, ![32768, 16, 16]⟩

/-! ## The projection on the flat token layout: (x · wt + b)[n, f] = ∑_k x[n, k] · wt[k, f] + b[f] -/

/-- Entry (n, k) of the token matrix, for output index (n, f). -/
abbrev tokAt (i : Tok.Idx) (k : Fin 1024) : Tok.Idx := fun a => match a with
  | ⟨0, _⟩ => ⟨(i 0).val, (i 0).isLt⟩
  | ⟨1, _⟩ => ⟨k.val, k.isLt⟩
/-- Entry (k, f) of the transposed weights, for output index (n, f). -/
abbrev wtAt (i : Tok.Idx) (k : Fin 1024) : Mat.Idx := fun a => match a with
  | ⟨0, _⟩ => ⟨k.val, k.isLt⟩
  | ⟨1, _⟩ => ⟨(i 1).val, (i 1).isLt⟩
/-- Entry f of the bias, for output index (n, f). -/
abbrev biasAt (i : Tok.Idx) : Row.Idx := fun a => match a with
  | ⟨0, _⟩ => ⟨(i 1).val, (i 1).isLt⟩

/-- The projection as the kernel lays it out: tokens by features, the weights already transposed. -/
def lin (x : Tok.Idx → EReal) (wt : Mat.Idx → EReal) (b : Row.Idx → EReal) : Tok.Idx → EReal :=
  fun i => (∑ k : Fin 1024, x (tokAt i k) * wt (wtAt i k)) + b (biasAt i)

/-! ## The projection read per head: q[n, h, d] = ∑_k a[n / 1024, n % 1024, k] · w[h · 64 + d, k] + b[h · 64 + d] -/

/-- Entry k of token n = t · 1024 + s in the activation array. -/
abbrev actAt (i : Hd.Idx) (k : Fin 1024) : Act.Idx := fun a => match a with
  | ⟨0, _⟩ => ⟨(i 0).val / 1024, by have h0 : (i 0).val < 32768 := (i 0).isLt; show (i 0).val / 1024 < 32; omega⟩
  | ⟨1, _⟩ => ⟨(i 0).val % 1024, by show (i 0).val % 1024 < 1024; omega⟩
  | ⟨2, _⟩ => ⟨k.val, k.isLt⟩
/-- Row f = h · 64 + d of the weights, entry k. -/
abbrev featAt (i : Hd.Idx) (k : Fin 1024) : Mat.Idx := fun a => match a with
  | ⟨0, _⟩ => ⟨(i 1).val * 64 + (i 2).val, by have h1 : (i 1).val < 16 := (i 1).isLt; have h2 : (i 2).val < 64 := (i 2).isLt; show (i 1).val * 64 + (i 2).val < 1024; omega⟩
  | ⟨1, _⟩ => ⟨k.val, k.isLt⟩
/-- Entry f = h · 64 + d of the bias. -/
abbrev featBias (i : Hd.Idx) : Row.Idx := fun a => match a with
  | ⟨0, _⟩ => ⟨(i 1).val * 64 + (i 2).val, by have h1 : (i 1).val < 16 := (i 1).isLt; have h2 : (i 2).val < 64 := (i 2).isLt; show (i 1).val * 64 + (i 2).val < 1024; omega⟩

/-- The projection of the activations, per token, head and head coordinate. -/
def heads (a : Act.Idx → EReal) (w : Mat.Idx → EReal) (b : Row.Idx → EReal) : Hd.Idx → EReal :=
  fun i => (∑ k : Fin 1024, a (actAt i k) * w (featAt i k)) + b (featBias i)

/-! ## Scores and contexts -/

/-- q[n, h, d] for output index (n, h, g). -/
abbrev qAt (i : Mix.Idx) (d : Fin 64) : Hd.Idx := fun a => match a with
  | ⟨0, _⟩ => ⟨(i 0).val, (i 0).isLt⟩
  | ⟨1, _⟩ => ⟨(i 1).val, (i 1).isLt⟩
  | ⟨2, _⟩ => ⟨d.val, d.isLt⟩
/-- k[n, g, d] for output index (n, h, g). -/
abbrev kAt (i : Mix.Idx) (d : Fin 64) : Hd.Idx := fun a => match a with
  | ⟨0, _⟩ => ⟨(i 0).val, (i 0).isLt⟩
  | ⟨1, _⟩ => ⟨(i 2).val, (i 2).isLt⟩
  | ⟨2, _⟩ => ⟨d.val, d.isLt⟩

/-- probs[n, h, g] = tanh ((∑_d q[n, h, d] · k[n, g, d]) · 1/8). -/
def probs (q k : Hd.Idx → EReal) : Mix.Idx → EReal :=
  fun i => Ideal.tanh ((∑ d : Fin 64, q (qAt i d) * k (kAt i d)) * ((1 / 8 : ℝ) : EReal))

/-- probs[n, h, g] for output index (n, h, d). -/
abbrev pAt (i : Hd.Idx) (g : Fin 16) : Mix.Idx := fun a => match a with
  | ⟨0, _⟩ => ⟨(i 0).val, (i 0).isLt⟩
  | ⟨1, _⟩ => ⟨(i 1).val, (i 1).isLt⟩
  | ⟨2, _⟩ => ⟨g.val, g.isLt⟩
/-- v[n, g, d] for output index (n, h, d). -/
abbrev vAt (i : Hd.Idx) (g : Fin 16) : Hd.Idx := fun a => match a with
  | ⟨0, _⟩ => ⟨(i 0).val, (i 0).isLt⟩
  | ⟨1, _⟩ => ⟨g.val, g.isLt⟩
  | ⟨2, _⟩ => ⟨(i 2).val, (i 2).isLt⟩

/-- ctx[n, h, d] = ∑_g p[n, h, g] · v[n, g, d]. -/
def ctx (p : Mix.Idx → EReal) (v : Hd.Idx → EReal) : Hd.Idx → EReal :=
  fun i => ∑ g : Fin 16, p (pAt i g) * v (vAt i g)

/-! ## The two spellings of the scale -/

/-- The kernel's scale 0.125 denotes the real 1/8. -/
theorem ofBits_eighth : Ideal.ofBits .f32 0x3E000000#32 = ((1 / 8 : ℝ) : EReal) := by
  simp [Ideal.ofBits, Ideal.ieee, -EReal.coe_mul]; norm_num

/-- The reference's 64.0 denotes the real 64. -/
theorem ofBits_64 : Ideal.ofBits .f32 0x42800000#32 = ((64 : ℝ) : EReal) := by
  simp [Ideal.ofBits, Ideal.ieee, -EReal.coe_mul]; norm_num

/-- √64 = 8, so the reference's quotient by √64.0 is the product with 1/8, on every extended real. -/
theorem div_sqrt_64 (x : EReal) :
    Ideal.div x (Ideal.sqrt (Ideal.ofBits .f32 0x42800000#32)) = x * ((1 / 8 : ℝ) : EReal) := by
  have h8 : Real.sqrt 64 = 8 := by
    rw [show (64 : ℝ) = 8 ^ 2 by norm_num]; exact Real.sqrt_sq (by norm_num)
  rw [ofBits_64, Ideal.sqrt_coe, if_neg (by norm_num), h8]
  exact Ideal.div_coe (by norm_num) x

/-! ## The flat projection, regrouped per head, is the projection per head -/

/-- Token n's feature h · 64 + d: where (n, h, d) sits in the flat layout. -/
abbrev flatOf (i : Hd.Idx) : Tok.Idx := fun a => match a with
  | ⟨0, _⟩ => ⟨(i 0).val, (i 0).isLt⟩
  | ⟨1, _⟩ => ⟨(i 1).val * 64 + (i 2).val, by have h1 : (i 1).val < 16 := (i 1).isLt; have h2 : (i 2).val < 64 := (i 2).isLt; show (i 1).val * 64 + (i 2).val < 1024; omega⟩

/-- Flattening the activations to tokens, transposing the weights, projecting on the flat layout and regrouping
    the features per head is the projection per head: both reshapes keep the row-major position
    ((t · 1024 + s) · 1024 + k, and (n · 16 + h) · 64 + d = n · 1024 + (h · 64 + d)), and the transposed weights
    read at (k, f) are the weights at (f, k). -/
theorem heads_of_lin (a : Act.Idx → EReal) (w : Mat.Idx → EReal) (b : Row.Idx → EReal)
    (h1 : Act.ShapeCasts Tok) (h2 : Mat.Transposes [1, 0] Mat) (h3 : Tok.ShapeCasts Hd) :
    shapeCast Hd (lin (shapeCast Tok a h1) (transpose Mat [1, 0] w h2) b) h3 = heads a w b := by
  funext i
  have h0 : (i 0).val < 32768 := (i 0).isLt
  have hh : (i 1).val < 16 := (i 1).isLt
  have hd : (i 2).val < 64 := (i 2).isLt
  rw [shapeCast_apply _ h3 i (flatOf i) (by
    rw [Shape.rowMajor_val_two, Shape.rowMajor_val_three]
    show (i 0).val * 1024 + ((i 1).val * 64 + (i 2).val) = ((i 0).val * 16 + (i 1).val) * 64 + (i 2).val
    omega)]
  unfold lin heads
  refine congrArg₂ (· + ·) (Finset.sum_congr rfl fun k _ => ?_) (congrArg b (funext fun a => Fin.ext (by
    match a with
    | ⟨0, _⟩ => rfl)))
  rw [shapeCast_apply a h1 (tokAt (flatOf i) k) (actAt i k) (by
    rw [Shape.rowMajor_val_three, Shape.rowMajor_val_two]
    show ((i 0).val / 1024 * 1024 + (i 0).val % 1024) * 1024 + k.val = (i 0).val * 1024 + k.val
    omega)]
  rw [transpose_apply [1, 0] w h2 (wtAt (flatOf i) k) (featAt i k) (fun b => by
    match b with
    | ⟨0, _⟩ => rfl
    | ⟨1, _⟩ => rfl)]

end Cert.Attn

end
-- ==== Proof.Proj0.lean ====
/-
  The first projection region: what its output array holds after the run, as one function of the arrays the region
  is entered with.
-/
import proofs.«177886_j7524782702743_1_alg».proof.Proof.Gen.KernelIdeal.Frame
import proofs.«177886_j7524782702743_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Proj0

open Idealize.ShloMosaic Idealize.ShloMosaic.TcCoe Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

/-! ## The body's arithmetic at one entry -/

/-- The left factor's row is the output's row. -/
theorem lhs_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
/-- The left factor's column is the summation position. -/
theorem lhs_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
/-- The right factor's row is the summation position. -/
theorem rhs_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
/-- The right factor's column is the output's column. -/
theorem rhs_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- Entry (p, q) of the body's result: row p of the first block against column q of the second, plus entry q of
    the bias row. -/
theorem pay (x0 x1 : Vec Ideal S1024x1024 .f32) (x2 : Vec Ideal S1024 .f32) (p q : Fin 1024) :
    k0_pay1 x0 x1 x2 (ValueIdx.ix2 p q)
      = (∑ k : Fin 1024, x0 (ValueIdx.ix2 p k) * x1 (ValueIdx.ix2 k q)) + x2 (ValueIdx.ix1 q) := by
  unfold k0_pay1
  refine (ValueIdx.truncf_apply (ψ := .bf16) _ bitsLt_bf16_f32 _).trans ?_
  refine (ValueIdx.addf_apply _ _ _).trans ?_
  refine congrArg₂ (· + ·) ?_ ?_
  · refine (Ideal.matmul_constant_zero_apply _ none _ _ _).trans ?_
    rw [← Equiv.sum_comp (ValueIdx.contrEquiv1 dot_S1024x1024_S1024x1024_S1024x1024_1_0_0_1_n_n 1024 rfl rfl).symm]
    refine Finset.sum_congr rfl fun k _ => ?_
    have hk := ValueIdx.contrEquiv1_symm_val dot_S1024x1024_S1024x1024_S1024x1024_1_0_0_1_n_n 1024 rfl rfl k
    have el : dot_S1024x1024_S1024x1024_S1024x1024_1_0_0_1_n_n.lhsIdx (ValueIdx.ix2 p q) ((ValueIdx.contrEquiv1 dot_S1024x1024_S1024x1024_S1024x1024_1_0_0_1_n_n 1024 rfl rfl).symm k) = ValueIdx.ix2 p k := funext fun a => Fin.ext (by
      match a with
      | ⟨0, _⟩ => exact lhs_0 _ _
      | ⟨1, _⟩ => exact (lhs_1 _ _).trans hk)
    have er : dot_S1024x1024_S1024x1024_S1024x1024_1_0_0_1_n_n.rhsIdx (ValueIdx.ix2 p q) ((ValueIdx.contrEquiv1 dot_S1024x1024_S1024x1024_S1024x1024_1_0_0_1_n_n 1024 rfl rfl).symm k) = ValueIdx.ix2 k q := funext fun a => Fin.ext (by
      match a with
      | ⟨0, _⟩ => exact (rhs_0 _ _).trans hk
      | ⟨1, _⟩ => exact rhs_1 _ _)
    rw [el, er, shapeCast_self, shapeCast_self]
    rfl
  · refine (broadcastTo_apply _ broadcasts_S1x1024_S1024x1024 (ValueIdx.ix2 p q) (ValueIdx.ix2 (0 : Fin 1) q) (fun a => by
      match a with
      | ⟨0, _⟩ => rfl
      | ⟨1, _⟩ => show q.val = if (1024 : Nat) = 1 then 0 else q.val; rw [if_neg (by decide)])).trans ?_
    refine (shapeCast_addUnit_apply _ x2 shapeCasts_S1024_S1x1024 _).trans ?_
    exact congrArg x2 (funext fun a => by
      match a with
      | ⟨0, _⟩ => rfl)

/-! ## What one grid point writes back -/

/-- The zero offset on two axes, and on one. -/
theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the token blocks and the output blocks step down the rows with the point,
    the weights and the bias are read whole at every point. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- Entry (p, k) of the token block at point t is the token array's entry (t · 1024 + p, k). -/
theorem read_tok (c : Dev nD) (t : Fin cfg0.N) (p k : Fin 1024) (i : S32768x1024.Idx)
    (h0 : (i 0).val = t.val * 1024 + p.val) (h1 : (i 1).val = k.val) :
    iblk0 V c 0 t (ValueIdx.ix2 p k) = V c main_v0 i := by
  show V c main_v0 (((cfg0.win 0).blk t).view.emb (ValueIdx.ix2 p k)) = V c main_v0 i
  obtain ⟨e0, e1, -⟩ := idx_facts t
  refine congrArg _ (funext fun a => Fin.ext ?_)
  match a with
  | ⟨0, _⟩ => show win0_0.index t (0 : Fin 2) * 1024 + 1 * p.val = (i 0).val; omega
  | ⟨1, _⟩ => show win0_0.index t (1 : Fin 2) * 1024 + 1 * k.val = (i 1).val; omega

/-- Entry (k, q) of the weight block at any point is the weight array's entry (k, q). -/
theorem read_wt (c : Dev nD) (t : Fin cfg0.N) (k q : Fin 1024) (i : S1024x1024.Idx)
    (h0 : (i 0).val = k.val) (h1 : (i 1).val = q.val) :
    iblk0 V c 1 t (ValueIdx.ix2 k q) = V c main_v3 i := by
  show V c main_v3 (((cfg0.win 1).blk t).view.emb (ValueIdx.ix2 k q)) = V c main_v3 i
  obtain ⟨-, -, e0, e1, -⟩ := idx_facts t
  refine congrArg _ (funext fun a => Fin.ext ?_)
  match a with
  | ⟨0, _⟩ => show win0_1.index t (0 : Fin 2) * 1024 + 1 * k.val = (i 0).val; omega
  | ⟨1, _⟩ => show win0_1.index t (1 : Fin 2) * 1024 + 1 * q.val = (i 1).val; omega

/-- Entry q of the bias block at any point is the bias array's entry q. -/
theorem read_bias (c : Dev nD) (t : Fin cfg0.N) (q : Fin 1024) (i : S1024.Idx) (h0 : (i 0).val = q.val) :
    iblk0 V c 2 t (ValueIdx.ix1 q) = V c main_arg4 i := by
  show V c main_arg4 (((cfg0.win 2).blk t).view.emb (ValueIdx.ix1 q)) = V c main_arg4 i
  obtain ⟨-, -, -, -, e0, -⟩ := idx_facts t
  refine congrArg _ (funext fun a => Fin.ext ?_)
  match a with
  | ⟨0, _⟩ => show win0_2.index t (0 : Fin 1) * 1024 + 1 * q.val = (i 0).val; omega

/-- Entry (p, q) of the output block at point t sits at (t · 1024 + p, q) in the output array. -/
theorem out_emb (t : Fin cfg0.N) (p q : Fin 1024) (h : t.val * 1024 + p.val < 32768) :
    (((cfg0.win 3).blk t).view.emb (ValueIdx.ix2 p q) : S32768x1024.Idx)
      = ValueIdx.ix2 (⟨t.val * 1024 + p.val, h⟩ : Fin 32768) q := by
  obtain ⟨-, -, -, -, -, e0, e1⟩ := idx_facts t
  refine funext fun a => Fin.ext ?_
  match a with
  | ⟨0, _⟩ => show win0_3.index t (0 : Fin 2) * 1024 + 1 * p.val = t.val * 1024 + p.val; omega
  | ⟨1, _⟩ => show win0_3.index t (1 : Fin 2) * 1024 + 1 * q.val = q.val; omega

/-- Grid point t writes back block t of the projection of the three arrays. -/
theorem flushed_eq (c : Dev nD) (t : Fin cfg0.N) :
    (dat0 (F := Ideal) V c).flushed 3 t
      = ((cfg0.win 3).blk t).view.read (Elt Ideal) (Cert.Attn.lin (V c main_v0) (V c main_v3) (V c main_arg4)) := by
  show (cfg0.win 3).cut (grid0.coords t) ((dat0 V c).after 3 t) = _
  rw [after0_3]
  unfold out0_3
  rw [View.canon_unit_zero hz2]
  simp only [View.ld_unit_zero (S := S1024x1024) hz2, View.ld_unit_zero (S := S1024) hz1]
  funext j
  obtain ⟨p, q, rfl⟩ : ∃ (p q : Fin 1024), j = ValueIdx.ix2 p q := ⟨j 0, j 1, ValueIdx.eq_ix2 j⟩
  have ht : t.val < 32 := t.isLt
  show k0_pay1 (iblk0 V c 0 t) (iblk0 V c 1 t) (iblk0 V c 2 t) (ValueIdx.ix2 p q)
    = Cert.Attn.lin (V c main_v0) (V c main_v3) (V c main_arg4) (((cfg0.win 3).blk t).view.emb (ValueIdx.ix2 p q))
  rw [pay, out_emb t p q (by omega)]
  unfold Cert.Attn.lin
  exact congrArg₂ (· + ·)
    (Finset.sum_congr rfl fun k _ => congrArg₂ (· * ·) (read_tok V c t p k _ rfl rfl) (read_wt V c t k q _ rfl rfl))
    (read_bias V c t q _ rfl)

/-! ## The blocks tile the output array -/

/-- An entry of the output array is in point t's block iff each coordinate is in the block's range on its axis. -/
theorem mem_blk (t : Fin cfg0.N) (i : S32768x1024.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v4).slice (win0_3.rect t)).set ↔ _
  rw [View.set_slice_whole, Rect.mem_set_unit]
  exact Iff.rfl

/-- Row r of the output array is in the block of point r / 1024, which is written back. -/
theorem cover (i : S32768x1024.Idx) :
    ∃ t : Fin cfg0.N, (cfg0.win 3).flush t = true ∧ i ∈ ((cfg0.win 3).blk t).view.set := by
  have h0 : (i 0).val < 32768 := (i 0).isLt
  have h1 : (i 1).val < 1024 := (i 1).isLt
  obtain ⟨t, ht⟩ : ∃ t : Fin cfg0.N, t.val = (i 0).val / 1024 :=
    ⟨⟨(i 0).val / 1024, by show (i 0).val / 1024 < 32; omega⟩, rfl⟩
  obtain ⟨-, -, -, -, -, e0, e1⟩ := idx_facts t
  refine ⟨t, flush0_3 t, ?_⟩
  rw [mem_blk]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 1024 ≤ (i 1).val ∧ (i 1).val < win0_3.index t (1 : Fin 2) * 1024 + 1024
    omega

/-! ## The output array after the region -/

/-- After the region, its output array is the flat projection of its three input arrays. -/
theorem final (c : Dev nD) :
    (dat0 (F := Ideal) V c).arrAt 3 cfg0.N = Cert.Attn.lin (V c main_v0) (V c main_v3) (V c main_arg4) :=
  (dat0 V c).arrAt_eq_of_cover 3 _ (fun t _ => flushed_eq V c t) cover

end Cert.KernelIdeal.Proj0

end
-- ==== Proof.Proj1.lean ====
/-
  The second projection region: what its output array holds after the run, as one function of the arrays the region
  is entered with.
-/
import proofs.«177886_j7524782702743_1_alg».proof.Proof.Gen.KernelIdeal.Frame
import proofs.«177886_j7524782702743_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Proj1

open Idealize.ShloMosaic Idealize.ShloMosaic.TcCoe Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

/-! ## The body's arithmetic at one entry -/

/-- The left factor's row is the output's row. -/
theorem lhs_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
/-- The left factor's column is the summation position. -/
theorem lhs_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
/-- The right factor's row is the summation position. -/
theorem rhs_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
/-- The right factor's column is the output's column. -/
theorem rhs_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- Entry (p, q) of the body's result: row p of the first block against column q of the second, plus entry q of
    the bias row. -/
theorem pay (x0 x1 : Vec Ideal S1024x1024 .f32) (x2 : Vec Ideal S1024 .f32) (p q : Fin 1024) :
    k1_pay1 x0 x1 x2 (ValueIdx.ix2 p q)
      = (∑ k : Fin 1024, x0 (ValueIdx.ix2 p k) * x1 (ValueIdx.ix2 k q)) + x2 (ValueIdx.ix1 q) := by
  unfold k1_pay1
  refine (ValueIdx.truncf_apply (ψ := .bf16) _ bitsLt_bf16_f32 _).trans ?_
  refine (ValueIdx.addf_apply _ _ _).trans ?_
  refine congrArg₂ (· + ·) ?_ ?_
  · refine (Ideal.matmul_constant_zero_apply _ none _ _ _).trans ?_
    rw [← Equiv.sum_comp (ValueIdx.contrEquiv1 dot_S1024x1024_S1024x1024_S1024x1024_1_0_0_1_n_n 1024 rfl rfl).symm]
    refine Finset.sum_congr rfl fun k _ => ?_
    have hk := ValueIdx.contrEquiv1_symm_val dot_S1024x1024_S1024x1024_S1024x1024_1_0_0_1_n_n 1024 rfl rfl k
    have el : dot_S1024x1024_S1024x1024_S1024x1024_1_0_0_1_n_n.lhsIdx (ValueIdx.ix2 p q) ((ValueIdx.contrEquiv1 dot_S1024x1024_S1024x1024_S1024x1024_1_0_0_1_n_n 1024 rfl rfl).symm k) = ValueIdx.ix2 p k := funext fun a => Fin.ext (by
      match a with
      | ⟨0, _⟩ => exact lhs_0 _ _
      | ⟨1, _⟩ => exact (lhs_1 _ _).trans hk)
    have er : dot_S1024x1024_S1024x1024_S1024x1024_1_0_0_1_n_n.rhsIdx (ValueIdx.ix2 p q) ((ValueIdx.contrEquiv1 dot_S1024x1024_S1024x1024_S1024x1024_1_0_0_1_n_n 1024 rfl rfl).symm k) = ValueIdx.ix2 k q := funext fun a => Fin.ext (by
      match a with
      | ⟨0, _⟩ => exact (rhs_0 _ _).trans hk
      | ⟨1, _⟩ => exact rhs_1 _ _)
    rw [el, er, shapeCast_self, shapeCast_self]
    rfl
  · refine (broadcastTo_apply _ broadcasts_S1x1024_S1024x1024 (ValueIdx.ix2 p q) (ValueIdx.ix2 (0 : Fin 1) q) (fun a => by
      match a with
      | ⟨0, _⟩ => rfl
      | ⟨1, _⟩ => show q.val = if (1024 : Nat) = 1 then 0 else q.val; rw [if_neg (by decide)])).trans ?_
    refine (shapeCast_addUnit_apply _ x2 shapeCasts_S1024_S1x1024 _).trans ?_
    exact congrArg x2 (funext fun a => by
      match a with
      | ⟨0, _⟩ => rfl)

/-! ## What one grid point writes back -/

/-- The zero offset on two axes, and on one. -/
theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the token blocks and the output blocks step down the rows with the point,
    the weights and the bias are read whole at every point. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- Entry (p, k) of the token block at point t is the token array's entry (t · 1024 + p, k). -/
theorem read_tok (c : Dev nD) (t : Fin cfg1.N) (p k : Fin 1024) (i : S32768x1024.Idx)
    (h0 : (i 0).val = t.val * 1024 + p.val) (h1 : (i 1).val = k.val) :
    iblk1 V c 0 t (ValueIdx.ix2 p k) = V c main_v1 i := by
  show V c main_v1 (((cfg1.win 0).blk t).view.emb (ValueIdx.ix2 p k)) = V c main_v1 i
  obtain ⟨e0, e1, -⟩ := idx_facts t
  refine congrArg _ (funext fun a => Fin.ext ?_)
  match a with
  | ⟨0, _⟩ => show win1_0.index t (0 : Fin 2) * 1024 + 1 * p.val = (i 0).val; omega
  | ⟨1, _⟩ => show win1_0.index t (1 : Fin 2) * 1024 + 1 * k.val = (i 1).val; omega

/-- Entry (k, q) of the weight block at any point is the weight array's entry (k, q). -/
theorem read_wt (c : Dev nD) (t : Fin cfg1.N) (k q : Fin 1024) (i : S1024x1024.Idx)
    (h0 : (i 0).val = k.val) (h1 : (i 1).val = q.val) :
    iblk1 V c 1 t (ValueIdx.ix2 k q) = V c main_v5 i := by
  show V c main_v5 (((cfg1.win 1).blk t).view.emb (ValueIdx.ix2 k q)) = V c main_v5 i
  obtain ⟨-, -, e0, e1, -⟩ := idx_facts t
  refine congrArg _ (funext fun a => Fin.ext ?_)
  match a with
  | ⟨0, _⟩ => show win1_1.index t (0 : Fin 2) * 1024 + 1 * k.val = (i 0).val; omega
  | ⟨1, _⟩ => show win1_1.index t (1 : Fin 2) * 1024 + 1 * q.val = (i 1).val; omega

/-- Entry q of the bias block at any point is the bias array's entry q. -/
theorem read_bias (c : Dev nD) (t : Fin cfg1.N) (q : Fin 1024) (i : S1024.Idx) (h0 : (i 0).val = q.val) :
    iblk1 V c 2 t (ValueIdx.ix1 q) = V c main_arg6 i := by
  show V c main_arg6 (((cfg1.win 2).blk t).view.emb (ValueIdx.ix1 q)) = V c main_arg6 i
  obtain ⟨-, -, -, -, e0, -⟩ := idx_facts t
  refine congrArg _ (funext fun a => Fin.ext ?_)
  match a with
  | ⟨0, _⟩ => show win1_2.index t (0 : Fin 1) * 1024 + 1 * q.val = (i 0).val; omega

/-- Entry (p, q) of the output block at point t sits at (t · 1024 + p, q) in the output array. -/
theorem out_emb (t : Fin cfg1.N) (p q : Fin 1024) (h : t.val * 1024 + p.val < 32768) :
    (((cfg1.win 3).blk t).view.emb (ValueIdx.ix2 p q) : S32768x1024.Idx)
      = ValueIdx.ix2 (⟨t.val * 1024 + p.val, h⟩ : Fin 32768) q := by
  obtain ⟨-, -, -, -, -, e0, e1⟩ := idx_facts t
  refine funext fun a => Fin.ext ?_
  match a with
  | ⟨0, _⟩ => show win1_3.index t (0 : Fin 2) * 1024 + 1 * p.val = t.val * 1024 + p.val; omega
  | ⟨1, _⟩ => show win1_3.index t (1 : Fin 2) * 1024 + 1 * q.val = q.val; omega

/-- Grid point t writes back block t of the projection of the three arrays. -/
theorem flushed_eq (c : Dev nD) (t : Fin cfg1.N) :
    (dat1 (F := Ideal) V c).flushed 3 t
      = ((cfg1.win 3).blk t).view.read (Elt Ideal) (Cert.Attn.lin (V c main_v1) (V c main_v5) (V c main_arg6)) := by
  show (cfg1.win 3).cut (grid1.coords t) ((dat1 V c).after 3 t) = _
  rw [after1_3]
  unfold out1_3
  rw [View.canon_unit_zero hz2]
  simp only [View.ld_unit_zero (S := S1024x1024) hz2, View.ld_unit_zero (S := S1024) hz1]
  funext j
  obtain ⟨p, q, rfl⟩ : ∃ (p q : Fin 1024), j = ValueIdx.ix2 p q := ⟨j 0, j 1, ValueIdx.eq_ix2 j⟩
  have ht : t.val < 32 := t.isLt
  show k1_pay1 (iblk1 V c 0 t) (iblk1 V c 1 t) (iblk1 V c 2 t) (ValueIdx.ix2 p q)
    = Cert.Attn.lin (V c main_v1) (V c main_v5) (V c main_arg6) (((cfg1.win 3).blk t).view.emb (ValueIdx.ix2 p q))
  rw [pay, out_emb t p q (by omega)]
  unfold Cert.Attn.lin
  exact congrArg₂ (· + ·)
    (Finset.sum_congr rfl fun k _ => congrArg₂ (· * ·) (read_tok V c t p k _ rfl rfl) (read_wt V c t k q _ rfl rfl))
    (read_bias V c t q _ rfl)

/-! ## The blocks tile the output array -/

/-- An entry of the output array is in point t's block iff each coordinate is in the block's range on its axis. -/
theorem mem_blk (t : Fin cfg1.N) (i : S32768x1024.Idx) :
    i ∈ ((cfg1.win 3).blk t).view.set ↔ ∀ a : Fin 2, win1_3.index t a * S1024x1024.size a ≤ (i a).val
      ∧ (i a).val < win1_3.index t a * S1024x1024.size a + S1024x1024.size a := by
  show i ∈ ((View.whole main_v6).slice (win1_3.rect t)).set ↔ _
  rw [View.set_slice_whole, Rect.mem_set_unit]
  exact Iff.rfl

/-- Row r of the output array is in the block of point r / 1024, which is written back. -/
theorem cover (i : S32768x1024.Idx) :
    ∃ t : Fin cfg1.N, (cfg1.win 3).flush t = true ∧ i ∈ ((cfg1.win 3).blk t).view.set := by
  have h0 : (i 0).val < 32768 := (i 0).isLt
  have h1 : (i 1).val < 1024 := (i 1).isLt
  obtain ⟨t, ht⟩ : ∃ t : Fin cfg1.N, t.val = (i 0).val / 1024 :=
    ⟨⟨(i 0).val / 1024, by show (i 0).val / 1024 < 32; omega⟩, rfl⟩
  obtain ⟨-, -, -, -, -, e0, e1⟩ := idx_facts t
  refine ⟨t, flush1_3 t, ?_⟩
  rw [mem_blk]
  intro a
  match a with
  | ⟨0, _⟩ =>
    show win1_3.index t (0 : Fin 2) * 1024 ≤ (i 0).val ∧ (i 0).val < win1_3.index t (0 : Fin 2) * 1024 + 1024
    omega
  | ⟨1, _⟩ =>
    show win1_3.index t (1 : Fin 2) * 1024 ≤ (i 1).val ∧ (i 1).val < win1_3.index t (1 : Fin 2) * 1024 + 1024
    omega

/-! ## The output array after the region -/

/-- After the region, its output array is the flat projection of its three input arrays. -/
theorem final (c : Dev nD) :
    (dat1 (F := Ideal) V c).arrAt 3 cfg1.N = Cert.Attn.lin (V c main_v1) (V c main_v5) (V c main_arg6) :=
  (dat1 V c).arrAt_eq_of_cover 3 _ (fun t _ => flushed_eq V c t) cover

end Cert.KernelIdeal.Proj1

end
-- ==== Proof.Proj2.lean ====
/-
  The third projection region: what its output array holds after the run, as one function of the arrays the region
  is entered with.
-/
import proofs.«177886_j7524782702743_1_alg».proof.Proof.Gen.KernelIdeal.Frame
import proofs.«177886_j7524782702743_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Proj2

open Idealize.ShloMosaic Idealize.ShloMosaic.TcCoe Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

/-! ## The body's arithmetic at one entry -/

/-- The left factor's row is the output's row. -/
theorem lhs_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
/-- The left factor's column is the summation position. -/
theorem lhs_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
/-- The right factor's row is the summation position. -/
theorem rhs_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
/-- The right factor's column is the output's column. -/
theorem rhs_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- Entry (p, q) of the body's result: row p of the first block against column q of the second, plus entry q of
    the bias row. -/
theorem pay (x0 x1 : Vec Ideal S1024x1024 .f32) (x2 : Vec Ideal S1024 .f32) (p q : Fin 1024) :
    k2_pay1 x0 x1 x2 (ValueIdx.ix2 p q)
      = (∑ k : Fin 1024, x0 (ValueIdx.ix2 p k) * x1 (ValueIdx.ix2 k q)) + x2 (ValueIdx.ix1 q) := by
  unfold k2_pay1
  refine (ValueIdx.truncf_apply (ψ := .bf16) _ bitsLt_bf16_f32 _).trans ?_
  refine (ValueIdx.addf_apply _ _ _).trans ?_
  refine congrArg₂ (· + ·) ?_ ?_
  · refine (Ideal.matmul_constant_zero_apply _ none _ _ _).trans ?_
    rw [← Equiv.sum_comp (ValueIdx.contrEquiv1 dot_S1024x1024_S1024x1024_S1024x1024_1_0_0_1_n_n 1024 rfl rfl).symm]
    refine Finset.sum_congr rfl fun k _ => ?_
    have hk := ValueIdx.contrEquiv1_symm_val dot_S1024x1024_S1024x1024_S1024x1024_1_0_0_1_n_n 1024 rfl rfl k
    have el : dot_S1024x1024_S1024x1024_S1024x1024_1_0_0_1_n_n.lhsIdx (ValueIdx.ix2 p q) ((ValueIdx.contrEquiv1 dot_S1024x1024_S1024x1024_S1024x1024_1_0_0_1_n_n 1024 rfl rfl).symm k) = ValueIdx.ix2 p k := funext fun a => Fin.ext (by
      match a with
      | ⟨0, _⟩ => exact lhs_0 _ _
      | ⟨1, _⟩ => exact (lhs_1 _ _).trans hk)
    have er : dot_S1024x1024_S1024x1024_S1024x1024_1_0_0_1_n_n.rhsIdx (ValueIdx.ix2 p q) ((ValueIdx.contrEquiv1 dot_S1024x1024_S1024x1024_S1024x1024_1_0_0_1_n_n 1024 rfl rfl).symm k) = ValueIdx.ix2 k q := funext fun a => Fin.ext (by
      match a with
      | ⟨0, _⟩ => exact (rhs_0 _ _).trans hk
      | ⟨1, _⟩ => exact rhs_1 _ _)
    rw [el, er, shapeCast_self, shapeCast_self]
    rfl
  · refine (broadcastTo_apply _ broadcasts_S1x1024_S1024x1024 (ValueIdx.ix2 p q) (ValueIdx.ix2 (0 : Fin 1) q) (fun a => by
      match a with
      | ⟨0, _⟩ => rfl
      | ⟨1, _⟩ => show q.val = if (1024 : Nat) = 1 then 0 else q.val; rw [if_neg (by decide)])).trans ?_
    refine (shapeCast_addUnit_apply _ x2 shapeCasts_S1024_S1x1024 _).trans ?_
    exact congrArg x2 (funext fun a => by
      match a with
      | ⟨0, _⟩ => rfl)

/-! ## What one grid point writes back -/

/-- The zero offset on two axes, and on one. -/
theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the token blocks and the output blocks step down the rows with the point,
    the weights and the bias are read whole at every point. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

/-- Entry (p, k) of the token block at point t is the token array's entry (t · 1024 + p, k). -/
theorem read_tok (c : Dev nD) (t : Fin cfg2.N) (p k : Fin 1024) (i : S32768x1024.Idx)
    (h0 : (i 0).val = t.val * 1024 + p.val) (h1 : (i 1).val = k.val) :
    iblk2 V c 0 t (ValueIdx.ix2 p k) = V c main_v2 i := by
  show V c main_v2 (((cfg2.win 0).blk t).view.emb (ValueIdx.ix2 p k)) = V c main_v2 i
  obtain ⟨e0, e1, -⟩ := idx_facts t
  refine congrArg _ (funext fun a => Fin.ext ?_)
  match a with
  | ⟨0, _⟩ => show win2_0.index t (0 : Fin 2) * 1024 + 1 * p.val = (i 0).val; omega
  | ⟨1, _⟩ => show win2_0.index t (1 : Fin 2) * 1024 + 1 * k.val = (i 1).val; omega

/-- Entry (k, q) of the weight block at any point is the weight array's entry (k, q). -/
theorem read_wt (c : Dev nD) (t : Fin cfg2.N) (k q : Fin 1024) (i : S1024x1024.Idx)
    (h0 : (i 0).val = k.val) (h1 : (i 1).val = q.val) :
    iblk2 V c 1 t (ValueIdx.ix2 k q) = V c main_v7 i := by
  show V c main_v7 (((cfg2.win 1).blk t).view.emb (ValueIdx.ix2 k q)) = V c main_v7 i
  obtain ⟨-, -, e0, e1, -⟩ := idx_facts t
  refine congrArg _ (funext fun a => Fin.ext ?_)
  match a with
  | ⟨0, _⟩ => show win2_1.index t (0 : Fin 2) * 1024 + 1 * k.val = (i 0).val; omega
  | ⟨1, _⟩ => show win2_1.index t (1 : Fin 2) * 1024 + 1 * q.val = (i 1).val; omega

/-- Entry q of the bias block at any point is the bias array's entry q. -/
theorem read_bias (c : Dev nD) (t : Fin cfg2.N) (q : Fin 1024) (i : S1024.Idx) (h0 : (i 0).val = q.val) :
    iblk2 V c 2 t (ValueIdx.ix1 q) = V c main_arg8 i := by
  show V c main_arg8 (((cfg2.win 2).blk t).view.emb (ValueIdx.ix1 q)) = V c main_arg8 i
  obtain ⟨-, -, -, -, e0, -⟩ := idx_facts t
  refine congrArg _ (funext fun a => Fin.ext ?_)
  match a with
  | ⟨0, _⟩ => show win2_2.index t (0 : Fin 1) * 1024 + 1 * q.val = (i 0).val; omega

/-- Entry (p, q) of the output block at point t sits at (t · 1024 + p, q) in the output array. -/
theorem out_emb (t : Fin cfg2.N) (p q : Fin 1024) (h : t.val * 1024 + p.val < 32768) :
    (((cfg2.win 3).blk t).view.emb (ValueIdx.ix2 p q) : S32768x1024.Idx)
      = ValueIdx.ix2 (⟨t.val * 1024 + p.val, h⟩ : Fin 32768) q := by
  obtain ⟨-, -, -, -, -, e0, e1⟩ := idx_facts t
  refine funext fun a => Fin.ext ?_
  match a with
  | ⟨0, _⟩ => show win2_3.index t (0 : Fin 2) * 1024 + 1 * p.val = t.val * 1024 + p.val; omega
  | ⟨1, _⟩ => show win2_3.index t (1 : Fin 2) * 1024 + 1 * q.val = q.val; omega

/-- Grid point t writes back block t of the projection of the three arrays. -/
theorem flushed_eq (c : Dev nD) (t : Fin cfg2.N) :
    (dat2 (F := Ideal) V c).flushed 3 t
      = ((cfg2.win 3).blk t).view.read (Elt Ideal) (Cert.Attn.lin (V c main_v2) (V c main_v7) (V c main_arg8)) := by
  show (cfg2.win 3).cut (grid2.coords t) ((dat2 V c).after 3 t) = _
  rw [after2_3]
  unfold out2_3
  rw [View.canon_unit_zero hz2]
  simp only [View.ld_unit_zero (S := S1024x1024) hz2, View.ld_unit_zero (S := S1024) hz1]
  funext j
  obtain ⟨p, q, rfl⟩ : ∃ (p q : Fin 1024), j = ValueIdx.ix2 p q := ⟨j 0, j 1, ValueIdx.eq_ix2 j⟩
  have ht : t.val < 32 := t.isLt
  show k2_pay1 (iblk2 V c 0 t) (iblk2 V c 1 t) (iblk2 V c 2 t) (ValueIdx.ix2 p q)
    = Cert.Attn.lin (V c main_v2) (V c main_v7) (V c main_arg8) (((cfg2.win 3).blk t).view.emb (ValueIdx.ix2 p q))
  rw [pay, out_emb t p q (by omega)]
  unfold Cert.Attn.lin
  exact congrArg₂ (· + ·)
    (Finset.sum_congr rfl fun k _ => congrArg₂ (· * ·) (read_tok V c t p k _ rfl rfl) (read_wt V c t k q _ rfl rfl))
    (read_bias V c t q _ rfl)

/-! ## The blocks tile the output array -/

/-- An entry of the output array is in point t's block iff each coordinate is in the block's range on its axis. -/
theorem mem_blk (t : Fin cfg2.N) (i : S32768x1024.Idx) :
    i ∈ ((cfg2.win 3).blk t).view.set ↔ ∀ a : Fin 2, win2_3.index t a * S1024x1024.size a ≤ (i a).val
      ∧ (i a).val < win2_3.index t a * S1024x1024.size a + S1024x1024.size a := by
  show i ∈ ((View.whole main_v8).slice (win2_3.rect t)).set ↔ _
  rw [View.set_slice_whole, Rect.mem_set_unit]
  exact Iff.rfl

/-- Row r of the output array is in the block of point r / 1024, which is written back. -/
theorem cover (i : S32768x1024.Idx) :
    ∃ t : Fin cfg2.N, (cfg2.win 3).flush t = true ∧ i ∈ ((cfg2.win 3).blk t).view.set := by
  have h0 : (i 0).val < 32768 := (i 0).isLt
  have h1 : (i 1).val < 1024 := (i 1).isLt
  obtain ⟨t, ht⟩ : ∃ t : Fin cfg2.N, t.val = (i 0).val / 1024 :=
    ⟨⟨(i 0).val / 1024, by show (i 0).val / 1024 < 32; omega⟩, rfl⟩
  obtain ⟨-, -, -, -, -, e0, e1⟩ := idx_facts t
  refine ⟨t, flush2_3 t, ?_⟩
  rw [mem_blk]
  intro a
  match a with
  | ⟨0, _⟩ =>
    show win2_3.index t (0 : Fin 2) * 1024 ≤ (i 0).val ∧ (i 0).val < win2_3.index t (0 : Fin 2) * 1024 + 1024
    omega
  | ⟨1, _⟩ =>
    show win2_3.index t (1 : Fin 2) * 1024 ≤ (i 1).val ∧ (i 1).val < win2_3.index t (1 : Fin 2) * 1024 + 1024
    omega

/-! ## The output array after the region -/

/-- After the region, its output array is the flat projection of its three input arrays. -/
theorem final (c : Dev nD) :
    (dat2 (F := Ideal) V c).arrAt 3 cfg2.N = Cert.Attn.lin (V c main_v2) (V c main_v7) (V c main_arg8) :=
  (dat2 V c).arrAt_eq_of_cover 3 _ (fun t _ => flushed_eq V c t) cover

end Cert.KernelIdeal.Proj2

end
-- ==== Proof.Attn3.lean ====
/-
  The attention region: what its two output arrays hold after the run, as functions of the arrays the region is
  entered with.
-/
import proofs.«177886_j7524782702743_1_alg».proof.Proof.Gen.KernelIdeal.Frame
import proofs.«177886_j7524782702743_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Attn3

open Idealize.ShloMosaic Idealize.ShloMosaic.TcCoe Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

/-! ## The two contractions' operand indices, axis by axis -/

/-- Scores: the left operand's token is the output's token. -/
theorem qk_lhs_0 (i : S1024x16x16.Idx) (q : Cert.KernelIdeal.dot_S1024x16x64_S1024x16x64_S1024x16x16_2_2_1_1_0_0.contr.Idx) :
    (Cert.KernelIdeal.dot_S1024x16x64_S1024x16x64_S1024x16x16_2_2_1_1_0_0.lhsIdx i q 0).val = (i 0).val := by
  unfold DotDims.lhsIdx
  rw [dif_pos (show (0 : Fin S1024x16x64.rank) ∈ Cert.KernelIdeal.dot_S1024x16x64_S1024x16x64_S1024x16x16_2_2_1_1_0_0.lhsBatch by decide)]
  rfl
/-- Scores: the left operand's head is the output's first head. -/
theorem qk_lhs_1 (i : S1024x16x16.Idx) (q : Cert.KernelIdeal.dot_S1024x16x64_S1024x16x64_S1024x16x16_2_2_1_1_0_0.contr.Idx) :
    (Cert.KernelIdeal.dot_S1024x16x64_S1024x16x64_S1024x16x16_2_2_1_1_0_0.lhsIdx i q 1).val = (i 1).val := by
  unfold DotDims.lhsIdx
  rw [dif_neg (show ¬(1 : Fin S1024x16x64.rank) ∈ Cert.KernelIdeal.dot_S1024x16x64_S1024x16x64_S1024x16x16_2_2_1_1_0_0.lhsBatch by decide), dif_pos (show (1 : Fin S1024x16x64.rank) ∈ Cert.KernelIdeal.dot_S1024x16x64_S1024x16x64_S1024x16x16_2_2_1_1_0_0.lhsNonContracting by decide)]
  rfl
/-- Scores: the left operand's head coordinate is the summation index. -/
theorem qk_lhs_2 (i : S1024x16x16.Idx) (q : Cert.KernelIdeal.dot_S1024x16x64_S1024x16x64_S1024x16x16_2_2_1_1_0_0.contr.Idx) :
    (Cert.KernelIdeal.dot_S1024x16x64_S1024x16x64_S1024x16x16_2_2_1_1_0_0.lhsIdx i q 2).val = (q ⟨0, by decide⟩).val :=
  Cert.KernelIdeal.dot_S1024x16x64_S1024x16x64_S1024x16x16_2_2_1_1_0_0.lhsIdx_val_of_single rfl i q
/-- Scores: the right operand's token is the output's token. -/
theorem qk_rhs_0 (i : S1024x16x16.Idx) (q : Cert.KernelIdeal.dot_S1024x16x64_S1024x16x64_S1024x16x16_2_2_1_1_0_0.contr.Idx) :
    (Cert.KernelIdeal.dot_S1024x16x64_S1024x16x64_S1024x16x16_2_2_1_1_0_0.rhsIdx i q 0).val = (i 0).val := by
  unfold DotDims.rhsIdx
  rw [dif_pos (show (0 : Fin S1024x16x64.rank) ∈ Cert.KernelIdeal.dot_S1024x16x64_S1024x16x64_S1024x16x16_2_2_1_1_0_0.rhsBatch by decide)]
  rfl
/-- Scores: the right operand's head is the output's second head. -/
theorem qk_rhs_1 (i : S1024x16x16.Idx) (q : Cert.KernelIdeal.dot_S1024x16x64_S1024x16x64_S1024x16x16_2_2_1_1_0_0.contr.Idx) :
    (Cert.KernelIdeal.dot_S1024x16x64_S1024x16x64_S1024x16x16_2_2_1_1_0_0.rhsIdx i q 1).val = (i 2).val := by
  unfold DotDims.rhsIdx
  rw [dif_neg (show ¬(1 : Fin S1024x16x64.rank) ∈ Cert.KernelIdeal.dot_S1024x16x64_S1024x16x64_S1024x16x16_2_2_1_1_0_0.rhsBatch by decide), dif_pos (show (1 : Fin S1024x16x64.rank) ∈ Cert.KernelIdeal.dot_S1024x16x64_S1024x16x64_S1024x16x16_2_2_1_1_0_0.rhsNonContracting by decide)]
  rfl
/-- Scores: the right operand's head coordinate is the summation index. -/
theorem qk_rhs_2 (i : S1024x16x16.Idx) (q : Cert.KernelIdeal.dot_S1024x16x64_S1024x16x64_S1024x16x16_2_2_1_1_0_0.contr.Idx) :
    (Cert.KernelIdeal.dot_S1024x16x64_S1024x16x64_S1024x16x16_2_2_1_1_0_0.rhsIdx i q 2).val = (q ⟨0, by decide⟩).val :=
  Cert.KernelIdeal.dot_S1024x16x64_S1024x16x64_S1024x16x16_2_2_1_1_0_0.rhsIdx_val_of_single rfl i q

/-- Mix: the left operand's token is the output's token. -/
theorem pv_lhs_0 (i : S1024x16x64.Idx) (q : Cert.KernelIdeal.dot_S1024x16x16_S1024x16x64_S1024x16x64_2_1_1_2_0_0.contr.Idx) :
    (Cert.KernelIdeal.dot_S1024x16x16_S1024x16x64_S1024x16x64_2_1_1_2_0_0.lhsIdx i q 0).val = (i 0).val := by
  unfold DotDims.lhsIdx
  rw [dif_pos (show (0 : Fin S1024x16x16.rank) ∈ Cert.KernelIdeal.dot_S1024x16x16_S1024x16x64_S1024x16x64_2_1_1_2_0_0.lhsBatch by decide)]
  rfl
/-- Mix: the left operand's first head is the output's head. -/
theorem pv_lhs_1 (i : S1024x16x64.Idx) (q : Cert.KernelIdeal.dot_S1024x16x16_S1024x16x64_S1024x16x64_2_1_1_2_0_0.contr.Idx) :
    (Cert.KernelIdeal.dot_S1024x16x16_S1024x16x64_S1024x16x64_2_1_1_2_0_0.lhsIdx i q 1).val = (i 1).val := by
  unfold DotDims.lhsIdx
  rw [dif_neg (show ¬(1 : Fin S1024x16x16.rank) ∈ Cert.KernelIdeal.dot_S1024x16x16_S1024x16x64_S1024x16x64_2_1_1_2_0_0.lhsBatch by decide), dif_pos (show (1 : Fin S1024x16x16.rank) ∈ Cert.KernelIdeal.dot_S1024x16x16_S1024x16x64_S1024x16x64_2_1_1_2_0_0.lhsNonContracting by decide)]
  rfl
/-- Mix: the left operand's second head is the summation index. -/
theorem pv_lhs_2 (i : S1024x16x64.Idx) (q : Cert.KernelIdeal.dot_S1024x16x16_S1024x16x64_S1024x16x64_2_1_1_2_0_0.contr.Idx) :
    (Cert.KernelIdeal.dot_S1024x16x16_S1024x16x64_S1024x16x64_2_1_1_2_0_0.lhsIdx i q 2).val = (q ⟨0, by decide⟩).val :=
  Cert.KernelIdeal.dot_S1024x16x16_S1024x16x64_S1024x16x64_2_1_1_2_0_0.lhsIdx_val_of_single rfl i q
/-- Mix: the right operand's token is the output's token. -/
theorem pv_rhs_0 (i : S1024x16x64.Idx) (q : Cert.KernelIdeal.dot_S1024x16x16_S1024x16x64_S1024x16x64_2_1_1_2_0_0.contr.Idx) :
    (Cert.KernelIdeal.dot_S1024x16x16_S1024x16x64_S1024x16x64_2_1_1_2_0_0.rhsIdx i q 0).val = (i 0).val := by
  unfold DotDims.rhsIdx
  rw [dif_pos (show (0 : Fin S1024x16x64.rank) ∈ Cert.KernelIdeal.dot_S1024x16x16_S1024x16x64_S1024x16x64_2_1_1_2_0_0.rhsBatch by decide)]
  rfl
/-- Mix: the right operand's head is the summation index. -/
theorem pv_rhs_1 (i : S1024x16x64.Idx) (q : Cert.KernelIdeal.dot_S1024x16x16_S1024x16x64_S1024x16x64_2_1_1_2_0_0.contr.Idx) :
    (Cert.KernelIdeal.dot_S1024x16x16_S1024x16x64_S1024x16x64_2_1_1_2_0_0.rhsIdx i q 1).val = (q ⟨0, by decide⟩).val :=
  Cert.KernelIdeal.dot_S1024x16x16_S1024x16x64_S1024x16x64_2_1_1_2_0_0.rhsIdx_val_of_single rfl i q
/-- Mix: the right operand's head coordinate is the output's. -/
theorem pv_rhs_2 (i : S1024x16x64.Idx) (q : Cert.KernelIdeal.dot_S1024x16x16_S1024x16x64_S1024x16x64_2_1_1_2_0_0.contr.Idx) :
    (Cert.KernelIdeal.dot_S1024x16x16_S1024x16x64_S1024x16x64_2_1_1_2_0_0.rhsIdx i q 2).val = (i 2).val := by
  unfold DotDims.rhsIdx
  rw [dif_neg (show ¬(2 : Fin S1024x16x64.rank) ∈ Cert.KernelIdeal.dot_S1024x16x16_S1024x16x64_S1024x16x64_2_1_1_2_0_0.rhsBatch by decide), dif_pos (show (2 : Fin S1024x16x64.rank) ∈ Cert.KernelIdeal.dot_S1024x16x16_S1024x16x64_S1024x16x64_2_1_1_2_0_0.rhsNonContracting by decide)]
  rfl

/-! ## The body's two results at an index -/

/-- The first result: the squashed scaled score of heads h and g of token n. -/
theorem pay1_apply (x0 x1 : Vec Ideal S1024x16x64 .bf16) (n : Fin 1024) (h g : Fin 16) :
    k3_pay1 (F := Ideal) x0 x1 (ValueIdx.ix3 n h g)
      = Ideal.tanh ((∑ d : Fin 64, x0 (ValueIdx.ix3 n h d) * x1 (ValueIdx.ix3 n g d)) * ((1 / 8 : ℝ) : EReal)) := by
  unfold k3_pay1
  rw [shapeCast_self, shapeCast_self]
  show Ideal.tanh (FloatOps.matmul Cert.KernelIdeal.dot_S1024x16x64_S1024x16x64_S1024x16x16_2_2_1_1_0_0 none x0 x1 (constant (F := Ideal) S1024x16x16 .f32 0x00000000#32) (ValueIdx.ix3 n h g) * Ideal.ofBits .f32 0x3E000000#32) = _
  rw [Ideal.matmul_constant_zero_apply, Cert.Attn.ofBits_eighth,
    ← Equiv.sum_comp (ValueIdx.contrEquiv1 Cert.KernelIdeal.dot_S1024x16x64_S1024x16x64_S1024x16x16_2_2_1_1_0_0 64 rfl rfl).symm]
  refine congrArg (fun s => Ideal.tanh (s * ((1 / 8 : ℝ) : EReal))) (Finset.sum_congr rfl fun k _ => ?_)
  have hk := ValueIdx.contrEquiv1_symm_val Cert.KernelIdeal.dot_S1024x16x64_S1024x16x64_S1024x16x16_2_2_1_1_0_0 64 rfl rfl k
  have el : Cert.KernelIdeal.dot_S1024x16x64_S1024x16x64_S1024x16x16_2_2_1_1_0_0.lhsIdx (ValueIdx.ix3 n h g) ((ValueIdx.contrEquiv1 Cert.KernelIdeal.dot_S1024x16x64_S1024x16x64_S1024x16x16_2_2_1_1_0_0 64 rfl rfl).symm k) = ValueIdx.ix3 n h k := funext fun a => Fin.ext (by
    match a with
    | ⟨0, _⟩ => exact qk_lhs_0 _ _
    | ⟨1, _⟩ => exact qk_lhs_1 _ _
    | ⟨2, _⟩ => exact (qk_lhs_2 _ _).trans hk)
  have er : Cert.KernelIdeal.dot_S1024x16x64_S1024x16x64_S1024x16x16_2_2_1_1_0_0.rhsIdx (ValueIdx.ix3 n h g) ((ValueIdx.contrEquiv1 Cert.KernelIdeal.dot_S1024x16x64_S1024x16x64_S1024x16x16_2_2_1_1_0_0 64 rfl rfl).symm k) = ValueIdx.ix3 n g k := funext fun a => Fin.ext (by
    match a with
    | ⟨0, _⟩ => exact qk_rhs_0 _ _
    | ⟨1, _⟩ => exact qk_rhs_1 _ _
    | ⟨2, _⟩ => exact (qk_rhs_2 _ _).trans hk)
  rw [el, er]

/-- The second result: head h's mix of the third input's heads by the first result. -/
theorem pay2_apply (x0 x1 x2 : Vec Ideal S1024x16x64 .bf16) (n : Fin 1024) (h : Fin 16) (d : Fin 64) :
    k3_pay2 (F := Ideal) x0 x1 x2 (ValueIdx.ix3 n h d)
      = ∑ g : Fin 16, k3_pay1 (F := Ideal) x0 x1 (ValueIdx.ix3 n h g) * x2 (ValueIdx.ix3 n g d) := by
  unfold k3_pay2
  rw [shapeCast_self]
  refine (Ideal.matmul_constant_zero_apply (φ₁ := .bf16) (φ₂ := .bf16) Cert.KernelIdeal.dot_S1024x16x16_S1024x16x64_S1024x16x64_2_1_1_2_0_0 none _ _ _).trans ?_
  rw [← Equiv.sum_comp (ValueIdx.contrEquiv1 Cert.KernelIdeal.dot_S1024x16x16_S1024x16x64_S1024x16x64_2_1_1_2_0_0 16 rfl rfl).symm]
  refine Finset.sum_congr rfl fun k _ => ?_
  have hk := ValueIdx.contrEquiv1_symm_val Cert.KernelIdeal.dot_S1024x16x16_S1024x16x64_S1024x16x64_2_1_1_2_0_0 16 rfl rfl k
  have el : Cert.KernelIdeal.dot_S1024x16x16_S1024x16x64_S1024x16x64_2_1_1_2_0_0.lhsIdx (ValueIdx.ix3 n h d) ((ValueIdx.contrEquiv1 Cert.KernelIdeal.dot_S1024x16x16_S1024x16x64_S1024x16x64_2_1_1_2_0_0 16 rfl rfl).symm k) = ValueIdx.ix3 n h k := funext fun a => Fin.ext (by
    match a with
    | ⟨0, _⟩ => exact pv_lhs_0 _ _
    | ⟨1, _⟩ => exact pv_lhs_1 _ _
    | ⟨2, _⟩ => exact (pv_lhs_2 _ _).trans hk)
  have er : Cert.KernelIdeal.dot_S1024x16x16_S1024x16x64_S1024x16x64_2_1_1_2_0_0.rhsIdx (ValueIdx.ix3 n h d) ((ValueIdx.contrEquiv1 Cert.KernelIdeal.dot_S1024x16x16_S1024x16x64_S1024x16x64_2_1_1_2_0_0 16 rfl rfl).symm k) = ValueIdx.ix3 n k d := funext fun a => Fin.ext (by
    match a with
    | ⟨0, _⟩ => exact pv_rhs_0 _ _
    | ⟨1, _⟩ => exact (pv_rhs_1 _ _).trans hk
    | ⟨2, _⟩ => exact pv_rhs_2 _ _)
  rw [el, er]
  rfl

/-! ## Where the blocks sit: point t's block of every window is rows [t · 1024, (t + 1) · 1024), whole on the other axes -/

theorem hz : (![0, 0, 0] : Fin 3 → Nat) = fun _ => 0 := funext fun a => by fin_cases a <;> rfl

/-- The five block index maps over the grid: block t on the token axis, block 0 on the other two. -/
theorem idx_facts : ∀ t : Fin cfg3.N,
    (win3_0.index t (0 : Fin 3) = t.val ∧ win3_0.index t (1 : Fin 3) = 0 ∧ win3_0.index t (2 : Fin 3) = 0)
    ∧ (win3_1.index t (0 : Fin 3) = t.val ∧ win3_1.index t (1 : Fin 3) = 0 ∧ win3_1.index t (2 : Fin 3) = 0)
    ∧ (win3_2.index t (0 : Fin 3) = t.val ∧ win3_2.index t (1 : Fin 3) = 0 ∧ win3_2.index t (2 : Fin 3) = 0)
    ∧ (win3_3.index t (0 : Fin 3) = t.val ∧ win3_3.index t (1 : Fin 3) = 0 ∧ win3_3.index t (2 : Fin 3) = 0)
    ∧ (win3_4.index t (0 : Fin 3) = t.val ∧ win3_4.index t (1 : Fin 3) = 0 ∧ win3_4.index t (2 : Fin 3) = 0) :=
  (by decide +kernel : ∀ t : Fin grid3.N, _)

/-- Point t's block of q at (y₀, y₁, y₂) is q at (t · 1024 + y₀, y₁, y₂). -/
theorem read_q (c : Dev nD) (t : Fin cfg3.N) (y : S1024x16x64.Idx) (i : S32768x16x64.Idx)
    (h0 : (i 0).val = t.val * 1024 + (y 0).val) (h1 : (i 1).val = (y 1).val) (h2 : (i 2).val = (y 2).val) :
    iblk3 (F := Ideal) V c 0 t y = V c main_v9 i := by
  show V c main_v9 (((cfg3.win 0).blk t).view.emb y) = V c main_v9 i
  obtain ⟨⟨e0, e1, e2⟩, -⟩ := idx_facts t
  refine congrArg _ (funext fun a => Fin.ext ?_)
  match a with
  | ⟨0, _⟩ => show win3_0.index t (0 : Fin 3) * 1024 + 1 * (y 0).val = (i 0).val; omega
  | ⟨1, _⟩ => show win3_0.index t (1 : Fin 3) * 16 + 1 * (y 1).val = (i 1).val; omega
  | ⟨2, _⟩ => show win3_0.index t (2 : Fin 3) * 64 + 1 * (y 2).val = (i 2).val; omega

/-- Point t's block of k at (y₀, y₁, y₂) is k at (t · 1024 + y₀, y₁, y₂). -/
theorem read_k (c : Dev nD) (t : Fin cfg3.N) (y : S1024x16x64.Idx) (i : S32768x16x64.Idx)
    (h0 : (i 0).val = t.val * 1024 + (y 0).val) (h1 : (i 1).val = (y 1).val) (h2 : (i 2).val = (y 2).val) :
    iblk3 (F := Ideal) V c 1 t y = V c main_v10 i := by
  show V c main_v10 (((cfg3.win 1).blk t).view.emb y) = V c main_v10 i
  obtain ⟨-, ⟨e0, e1, e2⟩, -⟩ := idx_facts t
  refine congrArg _ (funext fun a => Fin.ext ?_)
  match a with
  | ⟨0, _⟩ => show win3_1.index t (0 : Fin 3) * 1024 + 1 * (y 0).val = (i 0).val; omega
  | ⟨1, _⟩ => show win3_1.index t (1 : Fin 3) * 16 + 1 * (y 1).val = (i 1).val; omega
  | ⟨2, _⟩ => show win3_1.index t (2 : Fin 3) * 64 + 1 * (y 2).val = (i 2).val; omega

/-- Point t's block of v at (y₀, y₁, y₂) is v at (t · 1024 + y₀, y₁, y₂). -/
theorem read_v (c : Dev nD) (t : Fin cfg3.N) (y : S1024x16x64.Idx) (i : S32768x16x64.Idx)
    (h0 : (i 0).val = t.val * 1024 + (y 0).val) (h1 : (i 1).val = (y 1).val) (h2 : (i 2).val = (y 2).val) :
    iblk3 (F := Ideal) V c 2 t y = V c main_v11 i := by
  show V c main_v11 (((cfg3.win 2).blk t).view.emb y) = V c main_v11 i
  obtain ⟨-, -, ⟨e0, e1, e2⟩, -⟩ := idx_facts t
  refine congrArg _ (funext fun a => Fin.ext ?_)
  match a with
  | ⟨0, _⟩ => show win3_2.index t (0 : Fin 3) * 1024 + 1 * (y 0).val = (i 0).val; omega
  | ⟨1, _⟩ => show win3_2.index t (1 : Fin 3) * 16 + 1 * (y 1).val = (i 1).val; omega
  | ⟨2, _⟩ => show win3_2.index t (2 : Fin 3) * 64 + 1 * (y 2).val = (i 2).val; omega

/-- The first result on point t's blocks of q and k, at (n, h, g), is the score at any index of the scores array
    with coordinates (t · 1024 + n, h, g). -/
theorem pay1_blocks (c : Dev nD) (t : Fin cfg3.N) (n : Fin 1024) (h g : Fin 16) (i : S32768x16x16.Idx)
    (e0 : (i 0).val = t.val * 1024 + n.val) (e1 : (i 1).val = h.val) (e2 : (i 2).val = g.val) :
    k3_pay1 (F := Ideal) (iblk3 V c 0 t) (iblk3 V c 1 t) (ValueIdx.ix3 n h g)
      = Cert.Attn.probs (V c main_v9) (V c main_v10) i := by
  refine (pay1_apply (iblk3 V c 0 t) (iblk3 V c 1 t) n h g).trans ?_
  unfold Cert.Attn.probs
  refine congrArg (fun s => Ideal.tanh (s * ((1 / 8 : ℝ) : EReal))) (Finset.sum_congr rfl fun d _ => ?_)
  rw [read_q V c t (ValueIdx.ix3 n h d) (Cert.Attn.qAt i d) e0 e1 rfl,
    read_k V c t (ValueIdx.ix3 n g d) (Cert.Attn.kAt i d) e0 e2 rfl]

/-! ## The scores array: what each point writes back -/

/-- The scores block at (n, h, g) sits at (t · 1024 + n, h, g) of the scores array. -/
theorem emb_scores (t : Fin cfg3.N) (n : Fin 1024) (h g : Fin 16) :
    ((((cfg3.win 4).blk t).view.emb (ValueIdx.ix3 n h g)) 0).val = t.val * 1024 + n.val
    ∧ ((((cfg3.win 4).blk t).view.emb (ValueIdx.ix3 n h g)) 1).val = h.val
    ∧ ((((cfg3.win 4).blk t).view.emb (ValueIdx.ix3 n h g)) 2).val = g.val := by
  obtain ⟨-, -, -, -, ⟨e0, e1, e2⟩⟩ := idx_facts t
  refine ⟨?_, ?_, ?_⟩
  · show win3_4.index t (0 : Fin 3) * 1024 + 1 * n.val = _; omega
  · show win3_4.index t (1 : Fin 3) * 16 + 1 * h.val = _; omega
  · show win3_4.index t (2 : Fin 3) * 16 + 1 * g.val = _; omega

/-- Point t writes back block t of the squashed scaled scores of the entered q and k. -/
theorem flushed_probs_eq (c : Dev nD) (t : Fin cfg3.N) :
    (dat3 (F := Ideal) V c).flushed 4 t
      = ((cfg3.win 4).blk t).view.read (Elt Ideal) (Cert.Attn.probs (V c main_v9) (V c main_v10)) := by
  show (cfg3.win 4).cut (grid3.coords t) ((dat3 (F := Ideal) V c).after 4 t) = _
  rw [after3_4]
  unfold out3_4
  rw [View.canon_unit_zero hz]
  simp only [View.ld_unit_zero (S := S1024x16x64) hz]
  funext j
  obtain ⟨n, h, g, rfl⟩ : ∃ (n : Fin 1024) (h g : Fin 16), j = ValueIdx.ix3 n h g := ⟨_, _, _, ValueIdx.eq_ix3 j⟩
  show k3_pay1 (F := Ideal) (iblk3 V c 0 t) (iblk3 V c 1 t) (ValueIdx.ix3 n h g)
    = Cert.Attn.probs (V c main_v9) (V c main_v10) (((cfg3.win 4).blk t).view.emb (ValueIdx.ix3 n h g))
  obtain ⟨e0, e1, e2⟩ := emb_scores t n h g
  exact pay1_blocks V c t n h g _ e0 e1 e2

/-! ## The scores array after the run -/

/-- An index of the scores array is in point t's block iff each coordinate is in the block's range on its axis. -/
theorem mem_blk_scores (t : Fin cfg3.N) (i : S32768x16x16.Idx) :
    i ∈ ((cfg3.win 4).blk t).view.set ↔ ∀ a : Fin 3, win3_4.index t a * S1024x16x16.size a ≤ (i a).val ∧ (i a).val < win3_4.index t a * S1024x16x16.size a + S1024x16x16.size a := by
  show i ∈ ((View.whole main_v12_1).slice (win3_4.rect t)).set ↔ _
  rw [View.set_slice_whole, Rect.mem_set_unit]
  exact Iff.rfl

/-- Token n of the scores array is in the block of point n / 1024. -/
theorem cover_scores (i : S32768x16x16.Idx) :
    ∃ t : Fin cfg3.N, (cfg3.win 4).flush t = true ∧ i ∈ ((cfg3.win 4).blk t).view.set := by
  have h0 : (i 0).val < 32768 := (i 0).isLt
  have h1 : (i 1).val < 16 := (i 1).isLt
  have h2 : (i 2).val < 16 := (i 2).isLt
  refine ⟨⟨(i 0).val / 1024, by show (i 0).val / 1024 < 32; omega⟩, flush3_4 _, ?_⟩
  rw [mem_blk_scores]
  obtain ⟨-, -, -, -, ⟨e0, e1, e2⟩⟩ := idx_facts ⟨(i 0).val / 1024, by show (i 0).val / 1024 < 32; omega⟩
  have e0' : win3_4.index ⟨(i 0).val / 1024, by show (i 0).val / 1024 < 32; omega⟩ (0 : Fin 3) = (i 0).val / 1024 := e0
  intro a
  match a with
  | ⟨0, _⟩ => show win3_4.index _ (0 : Fin 3) * 1024 ≤ (i 0).val ∧ (i 0).val < win3_4.index _ (0 : Fin 3) * 1024 + 1024; omega
  | ⟨1, _⟩ => show win3_4.index _ (1 : Fin 3) * 16 ≤ (i 1).val ∧ (i 1).val < win3_4.index _ (1 : Fin 3) * 16 + 16; omega
  | ⟨2, _⟩ => show win3_4.index _ (2 : Fin 3) * 16 ≤ (i 2).val ∧ (i 2).val < win3_4.index _ (2 : Fin 3) * 16 + 16; omega

/-- After the region, the scores array holds the squashed scaled scores of the entered q and k. -/
theorem final_probs (c : Dev nD) :
    (dat3 (F := Ideal) V c).arrAt 4 cfg3.N = Cert.Attn.probs (V c main_v9) (V c main_v10) :=
  (dat3 (F := Ideal) V c).arrAt_eq_of_cover 4 _ (fun t _ => flushed_probs_eq V c t) cover_scores

/-! ## The context array: what each point writes back, and the array after the run -/

/-- The context block at (n, h, d) sits at (t · 1024 + n, h, d) of the context array. -/
theorem emb_ctx (t : Fin cfg3.N) (n : Fin 1024) (h : Fin 16) (d : Fin 64) :
    ((((cfg3.win 3).blk t).view.emb (ValueIdx.ix3 n h d)) 0).val = t.val * 1024 + n.val
    ∧ ((((cfg3.win 3).blk t).view.emb (ValueIdx.ix3 n h d)) 1).val = h.val
    ∧ ((((cfg3.win 3).blk t).view.emb (ValueIdx.ix3 n h d)) 2).val = d.val := by
  obtain ⟨-, -, -, ⟨e0, e1, e2⟩, -⟩ := idx_facts t
  refine ⟨?_, ?_, ?_⟩
  · show win3_3.index t (0 : Fin 3) * 1024 + 1 * n.val = _; omega
  · show win3_3.index t (1 : Fin 3) * 16 + 1 * h.val = _; omega
  · show win3_3.index t (2 : Fin 3) * 64 + 1 * d.val = _; omega

/-- Point t writes back block t of the mix of the entered v by the scores of the entered q and k. -/
theorem flushed_ctx_eq (c : Dev nD) (t : Fin cfg3.N) :
    (dat3 (F := Ideal) V c).flushed 3 t
      = ((cfg3.win 3).blk t).view.read (Elt Ideal)
          (Cert.Attn.ctx (Cert.Attn.probs (V c main_v9) (V c main_v10)) (V c main_v11)) := by
  show (cfg3.win 3).cut (grid3.coords t) ((dat3 (F := Ideal) V c).after 3 t) = _
  rw [after3_3]
  unfold out3_3
  rw [View.canon_unit_zero hz]
  simp only [View.ld_unit_zero (S := S1024x16x64) hz]
  funext j
  obtain ⟨n, h, d, rfl⟩ : ∃ (n : Fin 1024) (h : Fin 16) (d : Fin 64), j = ValueIdx.ix3 n h d := ⟨_, _, _, ValueIdx.eq_ix3 j⟩
  show k3_pay2 (F := Ideal) (iblk3 V c 0 t) (iblk3 V c 1 t) (iblk3 V c 2 t) (ValueIdx.ix3 n h d)
    = Cert.Attn.ctx (Cert.Attn.probs (V c main_v9) (V c main_v10)) (V c main_v11) (((cfg3.win 3).blk t).view.emb (ValueIdx.ix3 n h d))
  refine (pay2_apply (iblk3 V c 0 t) (iblk3 V c 1 t) (iblk3 V c 2 t) n h d).trans ?_
  obtain ⟨e0, e1, e2⟩ := emb_ctx t n h d
  unfold Cert.Attn.ctx
  refine Finset.sum_congr rfl fun g _ => ?_
  rw [pay1_blocks V c t n h g (Cert.Attn.pAt (((cfg3.win 3).blk t).view.emb (ValueIdx.ix3 n h d)) g) e0 e1 rfl,
    read_v V c t (ValueIdx.ix3 n g d) (Cert.Attn.vAt (((cfg3.win 3).blk t).view.emb (ValueIdx.ix3 n h d)) g) e0 rfl e2]

/-- An index of the context array is in point t's block iff each coordinate is in the block's range on its axis. -/
theorem mem_blk_ctx (t : Fin cfg3.N) (i : S32768x16x64.Idx) :
    i ∈ ((cfg3.win 3).blk t).view.set ↔ ∀ a : Fin 3, win3_3.index t a * S1024x16x64.size a ≤ (i a).val ∧ (i a).val < win3_3.index t a * S1024x16x64.size a + S1024x16x64.size a := by
  show i ∈ ((View.whole main_v12_0).slice (win3_3.rect t)).set ↔ _
  rw [View.set_slice_whole, Rect.mem_set_unit]
  exact Iff.rfl

/-- Token n of the context array is in the block of point n / 1024. -/
theorem cover_ctx (i : S32768x16x64.Idx) :
    ∃ t : Fin cfg3.N, (cfg3.win 3).flush t = true ∧ i ∈ ((cfg3.win 3).blk t).view.set := by
  have h0 : (i 0).val < 32768 := (i 0).isLt
  have h1 : (i 1).val < 16 := (i 1).isLt
  have h2 : (i 2).val < 64 := (i 2).isLt
  refine ⟨⟨(i 0).val / 1024, by show (i 0).val / 1024 < 32; omega⟩, flush3_3 _, ?_⟩
  rw [mem_blk_ctx]
  obtain ⟨-, -, -, ⟨e0, e1, e2⟩, -⟩ := idx_facts ⟨(i 0).val / 1024, by show (i 0).val / 1024 < 32; omega⟩
  have e0' : win3_3.index ⟨(i 0).val / 1024, by show (i 0).val / 1024 < 32; omega⟩ (0 : Fin 3) = (i 0).val / 1024 := e0
  intro a
  match a with
  | ⟨0, _⟩ => show win3_3.index _ (0 : Fin 3) * 1024 ≤ (i 0).val ∧ (i 0).val < win3_3.index _ (0 : Fin 3) * 1024 + 1024; omega
  | ⟨1, _⟩ => show win3_3.index _ (1 : Fin 3) * 16 ≤ (i 1).val ∧ (i 1).val < win3_3.index _ (1 : Fin 3) * 16 + 16; omega
  | ⟨2, _⟩ => show win3_3.index _ (2 : Fin 3) * 64 ≤ (i 2).val ∧ (i 2).val < win3_3.index _ (2 : Fin 3) * 64 + 64; omega

/-- After the region, the context array holds the mix of the entered v by those scores. -/
theorem final_ctx (c : Dev nD) :
    (dat3 (F := Ideal) V c).arrAt 3 cfg3.N
      = Cert.Attn.ctx (Cert.Attn.probs (V c main_v9) (V c main_v10)) (V c main_v11) :=
  (dat3 (F := Ideal) V c).arrAt_eq_of_cover 3 _ (fun t _ => flushed_ctx_eq V c t) cover_ctx

end Cert.KernelIdeal.Attn3

end
-- ==== Proof.Chain.lean ====
/-
  The contents of the idealized kernel's buffers at the end of @main, read back to the argument arrays.

  @main is nine segments: host operations (three reshapes of the activations to tokens and a transpose of each weight
  matrix; the reshapes of the three projections to heads; the transpose and reshape of the contexts) around four
  regions. Each region changes only its own arrays, each host operation only its result, so a buffer's contents at a
  boundary are the contents at the last boundary that wrote it.
-/
import proofs.«177886_j7524782702743_1_alg».proof.Proof.Gen.KernelIdeal.Frame
import proofs.«177886_j7524782702743_1_alg».proof.Proof.Spec
import proofs.«177886_j7524782702743_1_alg».proof.Proof.Proj0
import proofs.«177886_j7524782702743_1_alg».proof.Proof.Proj1
import proofs.«177886_j7524782702743_1_alg».proof.Proof.Proj2
import proofs.«177886_j7524782702743_1_alg».proof.Proof.Attn3
import Idealize.ShloMosaic.Lib.StableHlo.Run

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-! ## Region 0 is entered with the first activations as tokens, the first weights transposed, the first bias -/

theorem V1_v0 (c : Dev nD) : V1 m ρ c main_v0 = (shapeCast S32768x1024 (m ((c : Thread nD τ).loc main_arg0)) shapeCasts_S32x1024x1024_S32768x1024) := by
  show StableHlo.after hostOps0 (W0 m ρ c) (Proc.devRef .tc main_v0) = _
  after_results <;> rfl

theorem V1_v3 (c : Dev nD) : V1 m ρ c main_v3 = (transpose S1024x1024 [1, 0] (m ((c : Thread nD τ).loc main_arg3)) transposes_S1024x1024_S1024x1024_1_0) := by
  show StableHlo.after hostOps0 (W0 m ρ c) (Proc.devRef .tc main_v3) = _
  after_results <;> rfl

theorem V1_arg4 (c : Dev nD) : V1 m ρ c main_arg4 = (m ((c : Thread nD τ).loc main_arg4)) := by
  show StableHlo.after hostOps0 (W0 m ρ c) (Proc.devRef .tc main_arg4) = _
  after_results <;> rfl

/-- Region 0 leaves the flat query projection in its output array. -/
theorem W2_v4 (c : Dev nD) : W2 m ρ c (Proc.devRef .tc main_v4) = (Cert.Attn.lin (shapeCast S32768x1024 (m ((c : Thread nD τ).loc main_arg0)) shapeCasts_S32x1024x1024_S32768x1024) (transpose S1024x1024 [1, 0] (m ((c : Thread nD τ).loc main_arg3)) transposes_S1024x1024_S1024x1024_1_0) (m ((c : Thread nD τ).loc main_arg4))) := by
  rw [← V1_v0 m ρ c, ← V1_v3 m ρ c, ← V1_arg4 m ρ c]
  exact (W2_arr m ρ c 3).trans (Proj0.final (V1 m ρ) c)

/-! ## Region 1: the second activations, weights and bias; region 0 and the host operation between touch none of them -/

theorem V3_v1 (c : Dev nD) : V3 m ρ c main_v1 = (shapeCast S32768x1024 (m ((c : Thread nD τ).loc main_arg1)) shapeCasts_S32x1024x1024_S32768x1024) := by
  show StableHlo.after hostOps1 (W2 m ρ c) (Proc.devRef .tc main_v1) = _
  after_results
  rw [W2_of_ne m ρ c main_v1 (by decide)]
  show StableHlo.after hostOps0 (W0 m ρ c) (Proc.devRef .tc main_v1) = _
  after_results <;> rfl

theorem V3_v5 (c : Dev nD) : V3 m ρ c main_v5 = (transpose S1024x1024 [1, 0] (m ((c : Thread nD τ).loc main_arg5)) transposes_S1024x1024_S1024x1024_1_0) := by
  show StableHlo.after hostOps1 (W2 m ρ c) (Proc.devRef .tc main_v5) = _
  after_results
  rw [W2_of_ne m ρ c main_arg5 (by decide)]
  show transpose S1024x1024 [1, 0] (StableHlo.after hostOps0 (W0 m ρ c) (Proc.devRef .tc main_arg5)) _ = _
  after_results <;> rfl

theorem V3_arg6 (c : Dev nD) : V3 m ρ c main_arg6 = (m ((c : Thread nD τ).loc main_arg6)) := by
  show StableHlo.after hostOps1 (W2 m ρ c) (Proc.devRef .tc main_arg6) = _
  after_results
  rw [W2_of_ne m ρ c main_arg6 (by decide)]
  show StableHlo.after hostOps0 (W0 m ρ c) (Proc.devRef .tc main_arg6) = _
  after_results <;> rfl

/-- Region 1 leaves the flat key projection in its output array. -/
theorem W4_v6 (c : Dev nD) : W4 m ρ c (Proc.devRef .tc main_v6) = (Cert.Attn.lin (shapeCast S32768x1024 (m ((c : Thread nD τ).loc main_arg1)) shapeCasts_S32x1024x1024_S32768x1024) (transpose S1024x1024 [1, 0] (m ((c : Thread nD τ).loc main_arg5)) transposes_S1024x1024_S1024x1024_1_0) (m ((c : Thread nD τ).loc main_arg6))) := by
  rw [← V3_v1 m ρ c, ← V3_v5 m ρ c, ← V3_arg6 m ρ c]
  exact (W4_arr m ρ c 3).trans (Proj1.final (V3 m ρ) c)

/-! ## Region 2: the third activations, weights and bias, untouched by everything before -/

theorem V5_v2 (c : Dev nD) : V5 m ρ c main_v2 = (shapeCast S32768x1024 (m ((c : Thread nD τ).loc main_arg2)) shapeCasts_S32x1024x1024_S32768x1024) := by
  show StableHlo.after hostOps2 (W4 m ρ c) (Proc.devRef .tc main_v2) = _
  after_results
  rw [W4_of_ne m ρ c main_v2 (by decide)]
  show StableHlo.after hostOps1 (W2 m ρ c) (Proc.devRef .tc main_v2) = _
  after_results
  rw [W2_of_ne m ρ c main_v2 (by decide)]
  show StableHlo.after hostOps0 (W0 m ρ c) (Proc.devRef .tc main_v2) = _
  after_results <;> rfl

theorem V5_v7 (c : Dev nD) : V5 m ρ c main_v7 = (transpose S1024x1024 [1, 0] (m ((c : Thread nD τ).loc main_arg7)) transposes_S1024x1024_S1024x1024_1_0) := by
  show StableHlo.after hostOps2 (W4 m ρ c) (Proc.devRef .tc main_v7) = _
  after_results
  rw [W4_of_ne m ρ c main_arg7 (by decide)]
  show transpose S1024x1024 [1, 0] (StableHlo.after hostOps1 (W2 m ρ c) (Proc.devRef .tc main_arg7)) _ = _
  after_results
  rw [W2_of_ne m ρ c main_arg7 (by decide)]
  show transpose S1024x1024 [1, 0] (StableHlo.after hostOps0 (W0 m ρ c) (Proc.devRef .tc main_arg7)) _ = _
  after_results <;> rfl

theorem V5_arg8 (c : Dev nD) : V5 m ρ c main_arg8 = (m ((c : Thread nD τ).loc main_arg8)) := by
  show StableHlo.after hostOps2 (W4 m ρ c) (Proc.devRef .tc main_arg8) = _
  after_results
  rw [W4_of_ne m ρ c main_arg8 (by decide)]
  show StableHlo.after hostOps1 (W2 m ρ c) (Proc.devRef .tc main_arg8) = _
  after_results
  rw [W2_of_ne m ρ c main_arg8 (by decide)]
  show StableHlo.after hostOps0 (W0 m ρ c) (Proc.devRef .tc main_arg8) = _
  after_results <;> rfl

/-- Region 2 leaves the flat value projection in its output array. -/
theorem W6_v8 (c : Dev nD) : W6 m ρ c (Proc.devRef .tc main_v8) = (Cert.Attn.lin (shapeCast S32768x1024 (m ((c : Thread nD τ).loc main_arg2)) shapeCasts_S32x1024x1024_S32768x1024) (transpose S1024x1024 [1, 0] (m ((c : Thread nD τ).loc main_arg7)) transposes_S1024x1024_S1024x1024_1_0) (m ((c : Thread nD τ).loc main_arg8))) := by
  rw [← V5_v2 m ρ c, ← V5_v7 m ρ c, ← V5_arg8 m ρ c]
  exact (W6_arr m ρ c 3).trans (Proj2.final (V5 m ρ) c)

/-! ## Region 3 is entered with the three projections regrouped per head -/

theorem V7_v9 (c : Dev nD) : V7 m ρ c main_v9 = (Cert.Attn.heads (m ((c : Thread nD τ).loc main_arg0)) (m ((c : Thread nD τ).loc main_arg3)) (m ((c : Thread nD τ).loc main_arg4))) := by
  show StableHlo.after hostOps3 (W6 m ρ c) (Proc.devRef .tc main_v9) = _
  after_results
  rw [W6_of_ne m ρ c main_v4 (by decide)]
  show shapeCast S32768x16x64 (StableHlo.after hostOps2 (W4 m ρ c) (Proc.devRef .tc main_v4)) _ = _
  after_results
  rw [W4_of_ne m ρ c main_v4 (by decide)]
  show shapeCast S32768x16x64 (StableHlo.after hostOps1 (W2 m ρ c) (Proc.devRef .tc main_v4)) _ = _
  after_results
  rw [W2_v4 m ρ c]
  exact Cert.Attn.heads_of_lin _ _ _ _ _ _

theorem V7_v10 (c : Dev nD) : V7 m ρ c main_v10 = (Cert.Attn.heads (m ((c : Thread nD τ).loc main_arg1)) (m ((c : Thread nD τ).loc main_arg5)) (m ((c : Thread nD τ).loc main_arg6))) := by
  show StableHlo.after hostOps3 (W6 m ρ c) (Proc.devRef .tc main_v10) = _
  after_results
  rw [W6_of_ne m ρ c main_v6 (by decide)]
  show shapeCast S32768x16x64 (StableHlo.after hostOps2 (W4 m ρ c) (Proc.devRef .tc main_v6)) _ = _
  after_results
  rw [W4_v6 m ρ c]
  exact Cert.Attn.heads_of_lin _ _ _ _ _ _

theorem V7_v11 (c : Dev nD) : V7 m ρ c main_v11 = (Cert.Attn.heads (m ((c : Thread nD τ).loc main_arg2)) (m ((c : Thread nD τ).loc main_arg7)) (m ((c : Thread nD τ).loc main_arg8))) := by
  show StableHlo.after hostOps3 (W6 m ρ c) (Proc.devRef .tc main_v11) = _
  after_results
  rw [W6_v8 m ρ c]
  exact Cert.Attn.heads_of_lin _ _ _ _ _ _

/-! ## What region 3 leaves, and the end of @main -/

/-- The scores array after the attention region. -/
theorem W8_probs (c : Dev nD) : W8 m ρ c (Proc.devRef .tc main_v12_1) = Cert.Attn.probs (Cert.Attn.heads (m ((c : Thread nD τ).loc main_arg0)) (m ((c : Thread nD τ).loc main_arg3)) (m ((c : Thread nD τ).loc main_arg4))) (Cert.Attn.heads (m ((c : Thread nD τ).loc main_arg1)) (m ((c : Thread nD τ).loc main_arg5)) (m ((c : Thread nD τ).loc main_arg6))) := by
  rw [← V7_v9 m ρ c, ← V7_v10 m ρ c]
  exact (W8_arr m ρ c 4).trans (Attn3.final_probs (V7 m ρ) c)

/-- The context array after the attention region. -/
theorem W8_ctx (c : Dev nD) : W8 m ρ c (Proc.devRef .tc main_v12_0)
    = Cert.Attn.ctx (Cert.Attn.probs (Cert.Attn.heads (m ((c : Thread nD τ).loc main_arg0)) (m ((c : Thread nD τ).loc main_arg3)) (m ((c : Thread nD τ).loc main_arg4))) (Cert.Attn.heads (m ((c : Thread nD τ).loc main_arg1)) (m ((c : Thread nD τ).loc main_arg5)) (m ((c : Thread nD τ).loc main_arg6)))) (Cert.Attn.heads (m ((c : Thread nD τ).loc main_arg2)) (m ((c : Thread nD τ).loc main_arg7)) (m ((c : Thread nD τ).loc main_arg8))) := by
  rw [← V7_v9 m ρ c, ← V7_v10 m ρ c, ← V7_v11 m ρ c]
  exact (W8_arr m ρ c 3).trans (Attn3.final_ctx (V7 m ρ) c)

/-- The scores result at the end of @main: the last two host operations do not touch it. -/
theorem W9_probs (c : Dev nD) : W9 m ρ c (Proc.devRef .tc main_v12_1) = Cert.Attn.probs (Cert.Attn.heads (m ((c : Thread nD τ).loc main_arg0)) (m ((c : Thread nD τ).loc main_arg3)) (m ((c : Thread nD τ).loc main_arg4))) (Cert.Attn.heads (m ((c : Thread nD τ).loc main_arg1)) (m ((c : Thread nD τ).loc main_arg5)) (m ((c : Thread nD τ).loc main_arg6))) := by
  show StableHlo.after hostOps4 (W8 m ρ c) (Proc.devRef .tc main_v12_1) = _
  after_results
  exact W8_probs m ρ c

/-- The context result at the end of @main: the contexts with heads and head coordinates swapped, regrouped as
    activations. -/
theorem W9_ctx (c : Dev nD) : W9 m ρ c (Proc.devRef .tc main_v14)
    = shapeCast S32x1024x1024 (transpose S32768x64x16 [0, 2, 1] (Cert.Attn.ctx (Cert.Attn.probs (Cert.Attn.heads (m ((c : Thread nD τ).loc main_arg0)) (m ((c : Thread nD τ).loc main_arg3)) (m ((c : Thread nD τ).loc main_arg4))) (Cert.Attn.heads (m ((c : Thread nD τ).loc main_arg1)) (m ((c : Thread nD τ).loc main_arg5)) (m ((c : Thread nD τ).loc main_arg6)))) (Cert.Attn.heads (m ((c : Thread nD τ).loc main_arg2)) (m ((c : Thread nD τ).loc main_arg7)) (m ((c : Thread nD τ).loc main_arg8))))
        transposes_S32768x16x64_S32768x64x16_0_2_1) shapeCasts_S32768x64x16_S32x1024x1024 := by
  show StableHlo.after hostOps4 (W8 m ρ c) (Proc.devRef .tc main_v14) = _
  after_results
  rw [W8_ctx m ρ c]
  rfl

end Cert.KernelIdeal.Chain

end
-- ==== Proof.RefValue.lean ====
/-
  The reference's stages are the specification's functions of the arguments.

  Each projection stage is a contraction over the 1024 input features plus a bias broadcast along the feature
  axis, then regrouped from [32, 1024, 1024] to [32768, 16, 64]. The regrouping keeps the row-major position
  P = (n · 16 + h) · 64 + d = n · 1024 + (h · 64 + d), so the entry (n, h, d) of the regrouped array is the entry
  (P / 1048576, P / 1024 % 1024, P % 1024) = (n / 1024, n % 1024, h · 64 + d) of the projection: token n, feature
  h · 64 + d. The score stage contracts the head coordinate of the query heads against the key heads, divides by
  √64 and squashes; the context stage contracts the second head axis of the scores against the value heads.
-/
import proofs.«177886_j7524782702743_1_alg».proof.Proof.Gen.ReferenceIdeal.Run
import proofs.«177886_j7524782702743_1_alg».proof.Proof.Gen.ReferenceIdeal.Read
import proofs.«177886_j7524782702743_1_alg».proof.Proof.Spec

noncomputable section

namespace Cert.ReferenceIdeal.RefValue

open Idealize.ShloMosaic Cert.ReferenceIdeal Cert.ReferenceIdeal.Read

/-- The row-major position (n · 16 + h) · 64 + d, split as (t, s, f) with strides 1048576, 1024, 1: the token
    coordinates are n / 1024 and n % 1024 and the feature is h · 64 + d. -/
theorem regroup_pos (n h d : Nat) (hh : h < 16) (hd : d < 64) :
    ((n * 16 + h) * 64 + d) / 1048576 = n / 1024
      ∧ ((n * 16 + h) * 64 + d) / 1024 % 1024 = n % 1024
      ∧ ((n * 16 + h) * 64 + d) % 1024 = h * 64 + d := by
  omega

/-- The contraction over the input features plus the broadcast bias, read at the regrouped index (n, h, d), is the
    projection per head: the activation entry is (n / 1024, n % 1024, k), the weight entry is (h · 64 + d, k) and
    the bias entry is h · 64 + d. -/
theorem heads_flat (x : Cert.Attn.Act.Idx → EReal) (w : Cert.Attn.Mat.Idx → EReal) (b : Cert.Attn.Row.Idx → EReal)
    (i : Cert.Attn.Hd.Idx) :
    (∑ k : Fin 1024, x (lidx_main_v0 (idx_main_v4 i) k) * w (ridx_main_v0 (idx_main_v4 i) k))
      + b (idx_main_v1 (idx_main_v2 (idx_main_v4 i))) = Cert.Attn.heads x w b i := by
  have h1 : (i 1).val < 16 := (i 1).isLt
  have h2 : (i 2).val < 64 := (i 2).isLt
  obtain ⟨e0, e1, e2⟩ := regroup_pos (i 0).val (i 1).val (i 2).val h1 h2
  unfold Cert.Attn.heads
  refine congrArg₂ (· + ·)
    (Finset.sum_congr rfl fun k _ => congrArg₂ (· * ·) (congrArg x ?_) (congrArg w ?_)) (congrArg b ?_)
  · exact funext fun a => Fin.ext (by
      match a with
      | ⟨0, _⟩ => exact e0
      | ⟨1, _⟩ => exact e1
      | ⟨2, _⟩ => rfl)
  · exact funext fun a => Fin.ext (by
      match a with
      | ⟨0, _⟩ => exact e2
      | ⟨1, _⟩ => rfl)
  · exact funext fun a => Fin.ext (by
      match a with
      | ⟨0, _⟩ => exact e2)

/-- The query projection, regrouped per head. -/
theorem heads_q (x : Cert.Attn.Act.Idx → EReal) (w : Cert.Attn.Mat.Idx → EReal) (b : Cert.Attn.Row.Idx → EReal) :
    val_main_v4 (F := Ideal) x w b = Cert.Attn.heads x w b := by
  funext i
  rw [val_main_v4_apply, val_main_v3_apply, val_main_v0_apply, val_main_v2_apply, val_main_v1_apply]
  exact heads_flat x w b i

/-- The key projection, regrouped per head. -/
theorem heads_k (x : Cert.Attn.Act.Idx → EReal) (w : Cert.Attn.Mat.Idx → EReal) (b : Cert.Attn.Row.Idx → EReal) :
    val_main_v9 (F := Ideal) x w b = Cert.Attn.heads x w b := by
  funext i
  rw [val_main_v9_apply, val_main_v8_apply, val_main_v5_apply, val_main_v7_apply, val_main_v6_apply]
  exact heads_flat x w b i

/-- The value projection, regrouped per head. -/
theorem heads_v (x : Cert.Attn.Act.Idx → EReal) (w : Cert.Attn.Mat.Idx → EReal) (b : Cert.Attn.Row.Idx → EReal) :
    val_main_v14 (F := Ideal) x w b = Cert.Attn.heads x w b := by
  funext i
  rw [val_main_v14_apply, val_main_v13_apply, val_main_v10_apply, val_main_v12_apply, val_main_v11_apply]
  exact heads_flat x w b i

/-- The squashed scaled scores. -/
theorem probs_eq (x0 x1 : Cert.Attn.Act.Idx → EReal) (x3 : Cert.Attn.Mat.Idx → EReal) (x4 : Cert.Attn.Row.Idx → EReal)
    (x5 : Cert.Attn.Mat.Idx → EReal) (x6 : Cert.Attn.Row.Idx → EReal) :
    val_main_v19 (F := Ideal) x0 x1 x3 x4 x5 x6
      = Cert.Attn.probs (Cert.Attn.heads x0 x3 x4) (Cert.Attn.heads x1 x5 x6) := by
  funext i
  rw [val_main_v19_apply, val_main_v18_apply, val_main_v15_apply, val_main_v17_apply, val_main_v16_apply,
    val_main_cst_apply, heads_q, heads_k]
  unfold Cert.Attn.probs
  show Ideal.tanh (Ideal.div _ (Ideal.sqrt (Ideal.ofBits .f32 0x42800000#32))) = _
  rw [Cert.Attn.div_sqrt_64]
  rfl

/-- The contexts. -/
theorem ctx_eq (x0 x1 x2 : Cert.Attn.Act.Idx → EReal) (x3 : Cert.Attn.Mat.Idx → EReal) (x4 : Cert.Attn.Row.Idx → EReal)
    (x5 : Cert.Attn.Mat.Idx → EReal) (x6 : Cert.Attn.Row.Idx → EReal) (x7 : Cert.Attn.Mat.Idx → EReal) (x8 : Cert.Attn.Row.Idx → EReal) :
    val_main_v20 (F := Ideal) x0 x1 x2 x3 x4 x5 x6 x7 x8
      = Cert.Attn.ctx (Cert.Attn.probs (Cert.Attn.heads x0 x3 x4) (Cert.Attn.heads x1 x5 x6)) (Cert.Attn.heads x2 x7 x8) := by
  funext i
  rw [val_main_v20_apply, probs_eq, heads_v]
  rfl

end Cert.ReferenceIdeal.RefValue

end
-- ==== Proof.lean ====
/-
  The kernel computes, per token, the attention of its sixteen heads over one another: three affine projections
  q, k, v of the token's 1024 features (x ↦ x · Wᵀ + b, regrouped as 16 heads of 64 coordinates), the scores
  tanh ((∑_d q[h,d] · k[g,d]) / 8) of head h against head g, and the contexts ∑_g scores[h,g] · v[g,d], returned with
  heads and coordinates swapped. The kernel runs the three projections and the attention as four pipelined regions
  over blocks of 1024 tokens, scaling the scores by the literal 1/8; the reference is the same arithmetic as whole-array
  host operations, dividing by √64. Over the extended reals a change of float format is the identity, a matrix product
  is its sum of products in any order, and dividing by 8 is multiplying by 1/8 at every extended real, so the two
  programs are one function of the arguments; no finiteness of the inputs is used.

  The pieces: the specification (Proof/Spec.lean); each region's output array as the specification's function of the
  arrays it is entered with (Proof/Proj0.lean, Proj1.lean, Proj2.lean, Attn3.lean); the buffers at the end of @main
  read back through the segments to the arguments (Proof/Chain.lean) under the run with its results named
  (Proof/KernelRun.lean); the reference's stages as the specification's functions (Proof/RefValue.lean).
-/
import proofs.«177886_j7524782702743_1_alg».proof.Defs
import proofs.«177886_j7524782702743_1_alg».proof.Proof.Gen.Kernel
import proofs.«177886_j7524782702743_1_alg».proof.Proof.Gen.Kernel.Frame
import proofs.«177886_j7524782702743_1_alg».proof.Proof.Gen.KernelIdeal
import proofs.«177886_j7524782702743_1_alg».proof.Proof.Gen.KernelIdeal.Frame
import proofs.«177886_j7524782702743_1_alg».proof.Proof.Gen.ReferenceIdeal
import proofs.«177886_j7524782702743_1_alg».proof.Proof.Gen.ReferenceIdeal.Run
import proofs.«177886_j7524782702743_1_alg».proof.Proof.Gen.ReferenceIdeal.Read
import proofs.«177886_j7524782702743_1_alg».proof.Proof.Gen.Pre_finite_inputs
import proofs.«177886_j7524782702743_1_alg».proof.Proof.Spec
import proofs.«177886_j7524782702743_1_alg».proof.Proof.KernelRun
import proofs.«177886_j7524782702743_1_alg».proof.Proof.Chain
import proofs.«177886_j7524782702743_1_alg».proof.Proof.RefValue

noncomputable section

namespace Cert.Proof

open Idealize.ShloMosaic Idealize.ShloMosaic.TcCoe Idealize.SL.Sem

/-- The kernel as printed runs and leaves its arguments as launched. -/
theorem frame_k : @Cert.frame_Kernel Cert.Kernel.Gen.facts Cert.Pre_finite_inputs.Gen.facts :=
  fun m ρ _ => Cert.Kernel.Gen.frame m ρ

/-- So does its idealization. -/
theorem frame_ki : @Cert.frame_KernelIdeal Cert.KernelIdeal.Gen.facts Cert.Pre_finite_inputs.Gen.facts :=
  fun m ρ _ => Cert.KernelIdeal.Gen.frame m ρ

/-- The reference's run, its two results dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2.2)
    (Cert.ReferenceIdeal.Value.run (F := Ideal) m ρ)

/-- The reference's context result: the contexts of the specification, heads and coordinates swapped, regrouped
    as activations. -/
theorem ref_ctx (x0 x1 x2 : Cert.Attn.Act.Idx → EReal) (x3 : Cert.Attn.Mat.Idx → EReal) (x4 : Cert.Attn.Row.Idx → EReal)
    (x5 : Cert.Attn.Mat.Idx → EReal) (x6 : Cert.Attn.Row.Idx → EReal) (x7 : Cert.Attn.Mat.Idx → EReal) (x8 : Cert.Attn.Row.Idx → EReal) :
    Cert.ReferenceIdeal.Read.val_main_v22 (F := Ideal) x0 x1 x2 x3 x4 x5 x6 x7 x8
      = shapeCast Cert.ReferenceIdeal.S32x1024x1024 (transpose Cert.ReferenceIdeal.S32768x64x16 [0, 2, 1]
          (Cert.Attn.ctx (Cert.Attn.probs (Cert.Attn.heads x0 x3 x4) (Cert.Attn.heads x1 x5 x6)) (Cert.Attn.heads x2 x7 x8))
          Cert.ReferenceIdeal.Facts₀.transposes_S32768x16x64_S32768x64x16_0_2_1)
          Cert.ReferenceIdeal.Facts₀.shapeCasts_S32768x64x16_S32x1024x1024 := by
  unfold Cert.ReferenceIdeal.Read.val_main_v22 Cert.ReferenceIdeal.Read.val_main_v21
  rw [Cert.ReferenceIdeal.RefValue.ctx_eq]

/-- From memories agreeing on the arguments both idealized programs end with the same two results: the contexts and
    the scores of the specification at the kernel's arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨_, _, (θ_run Cert.KernelIdeal.defs _ _).mono (fun r h c => ⟨(h c).1.trans (Cert.KernelIdeal.Chain.W9_ctx m ρ c),
      (h c).2.1.trans (Cert.KernelIdeal.Chain.W9_probs m ρ c), (h c).2.2⟩) (Cert.KernelIdeal.Named.run_named (F := Ideal) m ρ), ?_⟩
  refine (θ_run Cert.ReferenceIdeal.defs _ _).mono (fun r h c => ⟨(h c).1.trans ?_, (h c).2.1.trans ?_, (h c).2.2⟩)
    (Cert.ReferenceIdeal.Value.run (F := Ideal) m' ρ')
  · refine (Cert.ReferenceIdeal.Read.val_main_v22_eq _ _ _ _ _ _ _ _ _).trans ((ref_ctx _ _ _ _ _ _ _ _ _).trans ?_)
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
  · refine (Cert.ReferenceIdeal.Read.val_main_v19_eq _ _ _ _ _ _).trans ((Cert.ReferenceIdeal.RefValue.probs_eq _ _ _ _ _ _).trans ?_)
    rw [(hagree c).1, (hagree c).2.1, (hagree c).2.2.2.1, (hagree c).2.2.2.2.1, (hagree c).2.2.2.2.2.1, (hagree c).2.2.2.2.2.2.1]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
